-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v124_0)) (v1 : (c : Dev Cert.KernelIdeal.nD) → Buf (Elt Ideal) ((c.tc : Thread Cert.KernelIdeal.nD Cert.KernelIdeal.τ).loc Cert.KernelIdeal.main_v124_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124_0) = v0 c
          ∧ r.2.mem ((c.tc : Thread Cert.KernelIdeal.nD Cert.KernelIdeal.τ).loc Cert.KernelIdeal.main_v124_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x126 : Shape := ⟨2, ![262144, 126]⟩
abbrev S262144x1 : Shape := ⟨2, ![262144, 1]⟩
abbrev S9x16 : Shape := ⟨2, ![9, 16]⟩
abbrev S16 : Shape := ⟨1, ![16]⟩
abbrev S16x4 : Shape := ⟨2, ![16, 4]⟩
abbrev S4 : Shape := ⟨1, ![4]⟩
abbrev S57x128 : Shape := ⟨2, ![57, 128]⟩
abbrev S128 : Shape := ⟨1, ![128]⟩
abbrev S128x30 : Shape := ⟨2, ![128, 30]⟩
abbrev S30 : Shape := ⟨1, ![30]⟩
abbrev S_ : Shape := ⟨0, ![]⟩

class Facts : Prop where
  bcast_S_S262144x126 : S_.BroadcastsInDim S262144x126 (![] : Fin 0 → Fin S262144x126.rank)
  reducesTo_S262144x126_S_d0_1 : S262144x126.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S9x16 : S_.BroadcastsInDim S9x16 (![] : Fin 0 → Fin S9x16.rank)
  reducesTo_S9x16_S_d0_1 : S9x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S57x128 : S_.BroadcastsInDim S57x128 (![] : Fin 0 → Fin S57x128.rank)
  reducesTo_S57x128_S_d0_1 : S57x128.ReducesTo [0, 1] S_
  bcast_S_S128 : S_.BroadcastsInDim S128 (![] : Fin 0 → Fin S128.rank)
  reducesTo_S128_S_d0 : S128.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_

variable [Facts]

def fn_part2 {F : FTy → Type} [FloatOps F] (main_arg7 : FVec F S128 .f32) (main_arg8 : FVec F S128x30 .f32) (main_arg9 : FVec F S30 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x30 .f32 := Host.absf main_arg8
  let main_cst_14 : FVec F S_ .f32 := constant S_ .f32 0x7F800000#32
  let main_v40 : FVec F S128x30 .f32 := broadcastInDim S128x30 ![] bcast_S_S128x30 main_cst_14
  let main_v41 : IVec S128x30 1 := cmpf .olt main_v39 main_v40
  let main_c_15 : IVec S_ 1 := constantI S_ 1 1#1
  let main_v42 : IVec S_ 1 := (fun x v => Host.reduce IntOp.andi x v reducesTo_S128x30_S_d0_1 h_S_) main_v41 main_c_15
  let main_v43 : IVec S_ 1 := andi main_v38 main_v42
  let main_v44 : FVec F S30 .f32 := Host.absf main_arg9
  let main_cst_16 : FVec F S_ .f32 := constant S_ .f32 0x7F800000#32
  let main_v45 : FVec F S30 .f32 := broadcastInDim S30 ![] bcast_S_S30 main_cst_16
  let main_v46 : IVec S30 1 := cmpf .olt main_v44 main_v45
  let main_c_17 : IVec S_ 1 := constantI S_ 1 1#1
  let main_v47 : IVec S_ 1 := (fun x v => Host.reduce IntOp.andi x v reducesTo_S30_S_d0 h_S_) main_v46 main_c_17
  let main_v48 : IVec S_ 1 := andi main_v43 main_v47
  main_v48

def fn_part1 {F : FTy → Type} [FloatOps F] (main_arg4 : FVec F S16x4 .f32) (main_arg5 : FVec F S4 .f32) (main_arg6 : FVec F S57x128 .f32) (main_arg7 : FVec F S128 .f32) (main_arg8 : FVec F S128x30 .f32) (main_arg9 : FVec F S30 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x4 .f32 := Host.absf main_arg4
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S57x128 .f32 := Host.absf main_arg6
  let main_cst_10 : FVec F S_ .f32 := constant S_ .f32 0x7F800000#32
  let main_v30 : FVec F S57x128 .f32 := broadcastInDim S57x128 ![] bcast_S_S57x128 main_cst_10
  let main_v31 : IVec S57x128 1 := cmpf .olt main_v29 main_v30
  let main_c_11 : IVec S_ 1 := constantI S_ 1 1#1
  let main_v32 : IVec S_ 1 := (fun x v => Host.reduce IntOp.andi x v reducesTo_S57x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x126 .f32) (main_arg1 : FVec F S262144x1 .f32) (main_arg2 : FVec F S9x16 .f32) (main_arg3 : FVec F S16 .f32) (main_arg4 : FVec F S16x4 .f32) (main_arg5 : FVec F S4 .f32) (main_arg6 : FVec F S57x128 .f32) (main_arg7 : FVec F S128 .f32) (main_arg8 : FVec F S128x30 .f32) (main_arg9 : FVec F S30 .f32) : IVec S_ 1 :=
  let main_v0 : FVec F S262144x126 .f32 := Host.absf main_arg0
  let main_cst : FVec F S_ .f32 := constant S_ .f32 0x7F800000#32
  let main_v1 : FVec F S262144x126 .f32 := broadcastInDim S262144x126 ![] bcast_S_S262144x126 main_cst
  let main_v2 : IVec S262144x126 1 := cmpf .olt main_v0 main_v1
  let main_c : IVec S_ 1 := constantI S_ 1 1#1
  let main_v3 : IVec S_ 1 := (fun x v => Host.reduce IntOp.andi x v reducesTo_S262144x126_S_d0_1 h_S_) main_v2 main_c
  let main_v4 : FVec F S262144x1 .f32 := Host.absf main_arg1
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S9x16 .f32 := Host.absf main_arg2
  let main_cst_2 : FVec F S_ .f32 := constant S_ .f32 0x7F800000#32
  let main_v10 : FVec F S9x16 .f32 := broadcastInDim S9x16 ![] bcast_S_S9x16 main_cst_2
  let main_v11 : IVec S9x16 1 := cmpf .olt main_v9 main_v10
  let main_c_3 : IVec S_ 1 := constantI S_ 1 1#1
  let main_v12 : IVec S_ 1 := (fun x v => Host.reduce IntOp.andi x v reducesTo_S9x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_v13 main_v16
-- ==== Kernel.lean ====
abbrev S262144x126 : Shape := ⟨2, ![262144, 126]⟩
abbrev S262144x1 : Shape := ⟨2, ![262144, 1]⟩
abbrev S9x16 : Shape := ⟨2, ![9, 16]⟩
abbrev S16 : Shape := ⟨1, ![16]⟩
abbrev S16x4 : Shape := ⟨2, ![16, 4]⟩
abbrev S4 : Shape := ⟨1, ![4]⟩
abbrev S57x128 : Shape := ⟨2, ![57, 128]⟩
abbrev S128 : Shape := ⟨1, ![128]⟩
abbrev S128x30 : Shape := ⟨2, ![128, 30]⟩
abbrev S30 : Shape := ⟨1, ![30]⟩
abbrev S_ : Shape := ⟨0, ![]⟩
abbrev S126x224 : Shape := ⟨2, ![126, 224]⟩
abbrev S1 : Shape := ⟨1, ![1]⟩
abbrev S2 : Shape := ⟨1, ![2]⟩
abbrev S224x56 : Shape := ⟨2, ![224, 56]⟩
abbrev S1x16 : Shape := ⟨2, ![1, 16]⟩
abbrev S14x16 : Shape := ⟨2, ![14, 16]⟩
abbrev S224 : Shape := ⟨1, ![224]⟩
abbrev S1x224 : Shape := ⟨2, ![1, 224]⟩
abbrev S1x4 : Shape := ⟨2, ![1, 4]⟩
abbrev S14x4 : Shape := ⟨2, ![14, 4]⟩
abbrev S56 : Shape := ⟨1, ![56]⟩
abbrev S1x56 : Shape := ⟨2, ![1, 56]⟩
abbrev S1x128 : Shape := ⟨2, ![1, 128]⟩
abbrev S1x30 : Shape := ⟨2, ![1, 30]⟩
abbrev S262144x15 : Shape := ⟨2, ![262144, 15]⟩
abbrev S4096x126 : Shape := ⟨2, ![4096, 126]⟩
abbrev S4096x1 : Shape := ⟨2, ![4096, 1]⟩
abbrev S4096x15 : Shape := ⟨2, ![4096, 15]⟩
abbrev S4096x224 : Shape := ⟨2, ![4096, 224]⟩
abbrev S4096x56 : Shape := ⟨2, ![4096, 56]⟩
abbrev S4096x57 : Shape := ⟨2, ![4096, 57]⟩
abbrev S4096x128 : Shape := ⟨2, ![4096, 128]⟩
abbrev S4096x30 : Shape := ⟨2, ![4096, 30]⟩

abbrev nBuf : Space → Nat
  | .hbm => 194
  | .vmem => 16
  | .smem => 0
  | _ => 0

abbrev hbmTy0_0 (i : Nat) : BufTy := match i % 128 with
  | 0 => ⟨S262144x126, .f32⟩
  | 1 => ⟨S262144x1, .f32⟩
  | 2 => ⟨S9x16, .f32⟩
  | 3 => ⟨S16, .f32⟩
  | 4 => ⟨S16x4, .f32⟩
  | 5 => ⟨S4, .f32⟩
  | 6 => ⟨S57x128, .f32⟩
  | 7 => ⟨S128, .f32⟩
  | 8 => ⟨S128x30, .f32⟩
  | 9 => ⟨S30, .f32⟩
  | 10 => ⟨S_, .f32⟩
  | 11 => ⟨S126x224, .f32⟩
  | 12 => ⟨S_, .i32⟩
  | 13 => ⟨S1, .i32⟩
  | 14 => ⟨S_, .i32⟩
  | 15 => ⟨S1, .i32⟩
  | 16 => ⟨S2, .i32⟩
  | 17 => ⟨S126x224, .f32⟩
  | 18 => ⟨S_, .i32⟩
  | 19 => ⟨S1, .i32⟩
  | 20 => ⟨S_, .i32⟩
  | 21 => ⟨S1, .i32⟩
  | 22 => ⟨S2, .i32⟩
  | 23 => ⟨S126x224, .f32⟩
  | 24 => ⟨S_, .i32⟩
  | 25 => ⟨S1, .i32⟩
  | 26 => ⟨S_, .i32⟩
  | 27 => ⟨S1, .i32⟩
  | 28 => ⟨S2, .i32⟩
  | 29 => ⟨S126x224, .f32⟩
  | 30 => ⟨S_, .i32⟩
  | 31 => ⟨S1, .i32⟩
  | 32 => ⟨S_, .i32⟩
  | 33 => ⟨S1, .i32⟩
  | 34 => ⟨S2, .i32⟩
  | 35 => ⟨S126x224, .f32⟩
  | 36 => ⟨S_, .i32⟩
  | 37 => ⟨S1, .i32⟩
  | 38 => ⟨S_, .i32⟩
  | 39 => ⟨S1, .i32⟩
  | 40 => ⟨S2, .i32⟩
  | 41 => ⟨S126x224, .f32⟩
  | 42 => ⟨S_, .i32⟩
  | 43 => ⟨S1, .i32⟩
  | 44 => ⟨S_, .i32⟩
  | 45 => ⟨S1, .i32⟩
  | 46 => ⟨S2, .i32⟩
  | 47 => ⟨S126x224, .f32⟩
  | 48 => ⟨S_, .i32⟩
  | 49 => ⟨S1, .i32⟩
  | 50 => ⟨S_, .i32⟩
  | 51 => ⟨S1, .i32⟩
  | 52 => ⟨S2, .i32⟩
  | 53 => ⟨S126x224, .f32⟩
  | 54 => ⟨S_, .i32⟩
  | 55 => ⟨S1, .i32⟩
  | 56 => ⟨S_, .i32⟩
  | 57 => ⟨S1, .i32⟩
  | 58 => ⟨S2, .i32⟩
  | 59 => ⟨S126x224, .f32⟩
  | 60 => ⟨S_, .i32⟩
  | 61 => ⟨S1, .i32⟩
  | 62 => ⟨S_, .i32⟩
  | 63 => ⟨S1, .i32⟩
  | 64 => ⟨S2, .i32⟩
  | 65 => ⟨S126x224, .f32⟩
  | 66 => ⟨S_, .i32⟩
  | 67 => ⟨S1, .i32⟩
  | 68 => ⟨S_, .i32⟩
  | 69 => ⟨S1, .i32⟩
  | 70 => ⟨S2, .i32⟩
  | 71 => ⟨S126x224, .f32⟩
  | 72 => ⟨S_, .i32⟩
  | 73 => ⟨S1, .i32⟩
  | 74 => ⟨S_, .i32⟩
  | 75 => ⟨S1, .i32⟩
  | 76 => ⟨S2, .i32⟩
  | 77 => ⟨S126x224, .f32⟩
  | 78 => ⟨S_, .i32⟩
  | 79 => ⟨S1, .i32⟩
  | 80 => ⟨S_, .i32⟩
  | 81 => ⟨S1, .i32⟩
  | 82 => ⟨S2, .i32⟩
  | 83 => ⟨S126x224, .f32⟩
  | 84 => ⟨S_, .i32⟩
  | 85 => ⟨S1, .i32⟩
  | 86 => ⟨S_, .i32⟩
  | 87 => ⟨S1, .i32⟩
  | 88 => ⟨S2, .i32⟩
  | 89 => ⟨S126x224, .f32⟩
  | 90 => ⟨S_, .i32⟩
  | 91 => ⟨S1, .i32⟩
  | 92 => ⟨S_, .i32⟩
  | 93 => ⟨S1, .i32⟩
  | 94 => ⟨S2, .i32⟩
  | 95 => ⟨S126x224, .f32⟩
  | 96 => ⟨S_, .f32⟩
  | 97 => ⟨S224x56, .f32⟩
  | 98 => ⟨S_, .i32⟩
  | 99 => ⟨S1, .i32⟩
  | 100 => ⟨S_, .i32⟩
  | 101 => ⟨S1, .i32⟩
  | 102 => ⟨S2, .i32⟩
  | 103 => ⟨S224x56, .f32⟩
  | 104 => ⟨S_, .i32⟩
  | 105 => ⟨S1, .i32⟩
  | 106 => ⟨S_, .i32⟩
  | 107 => ⟨S1, .i32⟩
  | 108 => ⟨S2, .i32⟩
  | 109 => ⟨S224x56, .f32⟩
  | 110 => ⟨S_, .i32⟩
  | 111 => ⟨S1, .i32⟩
  | 112 => ⟨S_, .i32⟩
  | 113 => ⟨S1, .i32⟩
  | 114 => ⟨S2, .i32⟩
  | 115 => ⟨S224x56, .f32⟩
  | 116 => ⟨S_, .i32⟩
  | 117 => ⟨S1, .i32⟩
  | 118 => ⟨S_, .i32⟩
  | 119 => ⟨S1, .i32⟩
  | 120 => ⟨S2, .i32⟩
  | 121 => ⟨S224x56, .f32⟩
  | 122 => ⟨S_, .i32⟩
  | 123 => ⟨S1, .i32⟩
  | 124 => ⟨S_, .i32⟩
  | 125 => ⟨S1, .i32⟩
  | 126 => ⟨S2, .i32⟩
  | 127 => ⟨S224x56, .f32⟩
  | _ => ⟨S262144x126, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S224x56, .f32⟩
  | 6 => ⟨S_, .i32⟩
  | 7 => ⟨S1, .i32⟩
  | 8 => ⟨S_, .i32⟩
  | 9 => ⟨S1, .i32⟩
  | 10 => ⟨S2, .i32⟩
  | 11 => ⟨S224x56, .f32⟩
  | 12 => ⟨S_, .i32⟩
  | 13 => ⟨S1, .i32⟩
  | 14 => ⟨S_, .i32⟩
  | 15 => ⟨S1, .i32⟩
  | 16 => ⟨S2, .i32⟩
  | 17 => ⟨S224x56, .f32⟩
  | 18 => ⟨S_, .i32⟩
  | 19 => ⟨S1, .i32⟩
  | 20 => ⟨S_, .i32⟩
  | 21 => ⟨S1, .i32⟩
  | 22 => ⟨S2, .i32⟩
  | 23 => ⟨S224x56, .f32⟩
  | 24 => ⟨S_, .i32⟩
  | 25 => ⟨S1, .i32⟩
  | 26 => ⟨S_, .i32⟩
  | 27 => ⟨S1, .i32⟩
  | 28 => ⟨S2, .i32⟩
  | 29 => ⟨S224x56, .f32⟩
  | 30 => ⟨S_, .i32⟩
  | 31 => ⟨S1, .i32⟩
  | 32 => ⟨S_, .i32⟩
  | 33 => ⟨S1, .i32⟩
  | 34 => ⟨S2, .i32⟩
  | 35 => ⟨S224x56, .f32⟩
  | 36 => ⟨S_, .i32⟩
  | 37 => ⟨S1, .i32⟩
  | 38 => ⟨S_, .i32⟩
  | 39 => ⟨S1, .i32⟩
  | 40 => ⟨S2, .i32⟩
  | 41 => ⟨S224x56, .f32⟩
  | 42 => ⟨S_, .i32⟩
  | 43 => ⟨S1, .i32⟩
  | 44 => ⟨S_, .i32⟩
  | 45 => ⟨S1, .i32⟩
  | 46 => ⟨S2, .i32⟩
  | 47 => ⟨S224x56, .f32⟩
  | 48 => ⟨S_, .i32⟩
  | 49 => ⟨S1, .i32⟩
  | 50 => ⟨S_, .i32⟩
  | 51 => ⟨S1, .i32⟩
  | 52 => ⟨S2, .i32⟩
  | 53 => ⟨S224x56, .f32⟩
  | 54 => ⟨S1x16, .f32⟩
  | 55 => ⟨S14x16, .f32⟩
  | 56 => ⟨S224, .f32⟩
  | 57 => ⟨S1x224, .f32⟩
  | 58 => ⟨S1x4, .f32⟩
  | 59 => ⟨S14x4, .f32⟩
  | 60 => ⟨S56, .f32⟩
  | 61 => ⟨S1x56, .f32⟩
  | 62 => ⟨S1x128, .f32⟩
  | 63 => ⟨S1x30, .f32⟩
  | 64 => ⟨S262144x15, .f32⟩
  | 65 => ⟨S262144x15, .f32⟩
  | _ => ⟨S262144x126, .f32⟩

abbrev hbmTy (i : Nat) : BufTy := match i / 128 with
  | 0 => hbmTy0_0 i
  | 1 => hbmTy0_1 i
  | _ => ⟨S262144x126, .f32⟩

abbrev bufTy : (tb : Table) → Fin (tcTables nBuf tb) → BufTy
  | .hbm, ⟨i, _⟩ => hbmTy i
  | .local _ .vmem, ⟨0, _⟩ => ⟨S4096x126, .f32⟩
  | .local _ .vmem, ⟨1, _⟩ => ⟨S4096x126, .f32⟩
  | .local _ .vmem, ⟨2, _⟩ => ⟨S4096x1, .f32⟩
  | .local _ .vmem, ⟨3, _⟩ => ⟨S4096x1, .f32⟩
  | .local _ .vmem, ⟨4, _⟩ => ⟨S126x224, .f32⟩
  | .local _ .vmem, ⟨5, _⟩ => ⟨S1x224, .f32⟩
  | .local _ .vmem, ⟨6, _⟩ => ⟨S224x56, .f32⟩
  | .local _ .vmem, ⟨7, _⟩ => ⟨S1x56, .f32⟩
  | .local _ .vmem, ⟨8, _⟩ => ⟨S57x128, .f32⟩
  | .local _ .vmem, ⟨9, _⟩ => ⟨S1x128, .f32⟩
  | .local _ .vmem, ⟨10, _⟩ => ⟨S128x30, .f32⟩
  | .local _ .vmem, ⟨11, _⟩ => ⟨S1x30, .f32⟩
  | .local _ .vmem, ⟨12, _⟩ => ⟨S4096x15, .f32⟩
  | .local _ .vmem, ⟨13, _⟩ => ⟨S4096x15, .f32⟩
  | .local _ .vmem, ⟨14, _⟩ => ⟨S4096x15, .f32⟩
  | .local _ .vmem, ⟨15, _⟩ => ⟨S4096x15, .f32⟩
  | _, _ => ⟨S262144x126, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_c_6 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_v17 : Ref sig .tc := ⟨.hbm, 37, rfl⟩
abbrev main_c_8 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_c_10 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_11 : Ref sig .tc := ⟨.hbm, 48, rfl⟩
abbrev main_v25 : Ref sig .tc := ⟨.hbm, 49, rfl⟩
abbrev main_c_12 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_13 : Ref sig .tc := ⟨.hbm, 54, rfl⟩
abbrev main_v29 : Ref sig .tc := ⟨.hbm, 55, rfl⟩
abbrev main_c_14 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_15 : Ref sig .tc := ⟨.hbm, 60, rfl⟩
abbrev main_v33 : Ref sig .tc := ⟨.hbm, 61, rfl⟩
abbrev main_c_16 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_17 : Ref sig .tc := ⟨.hbm, 66, rfl⟩
abbrev main_v37 : Ref sig .tc := ⟨.hbm, 67, rfl⟩
abbrev main_c_18 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_19 : Ref sig .tc := ⟨.hbm, 72, rfl⟩
abbrev main_v41 : Ref sig .tc := ⟨.hbm, 73, rfl⟩
abbrev main_c_20 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_21 : Ref sig .tc := ⟨.hbm, 78, rfl⟩
abbrev main_v45 : Ref sig .tc := ⟨.hbm, 79, rfl⟩
abbrev main_c_22 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_23 : Ref sig .tc := ⟨.hbm, 84, rfl⟩
abbrev main_v49 : Ref sig .tc := ⟨.hbm, 85, rfl⟩
abbrev main_c_24 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_25 : Ref sig .tc := ⟨.hbm, 90, rfl⟩
abbrev main_v53 : Ref sig .tc := ⟨.hbm, 91, rfl⟩
abbrev main_c_26 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_27 : Ref sig .tc := ⟨.hbm, 96, rfl⟩
abbrev main_v57 : Ref sig .tc := ⟨.hbm, 97, rfl⟩
abbrev main_c_28 : Ref sig .tc := ⟨.hbm, 98, rfl⟩
abbrev main_v58 : Ref sig .tc := ⟨.hbm, 99, rfl⟩
abbrev main_c_29 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_30 : Ref sig .tc := ⟨.hbm, 104, rfl⟩
abbrev main_v62 : Ref sig .tc := ⟨.hbm, 105, rfl⟩
abbrev main_c_31 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_32 : Ref sig .tc := ⟨.hbm, 110, rfl⟩
abbrev main_v66 : Ref sig .tc := ⟨.hbm, 111, rfl⟩
abbrev main_c_33 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_34 : Ref sig .tc := ⟨.hbm, 116, rfl⟩
abbrev main_v70 : Ref sig .tc := ⟨.hbm, 117, rfl⟩
abbrev main_c_35 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_36 : Ref sig .tc := ⟨.hbm, 122, rfl⟩
abbrev main_v74 : Ref sig .tc := ⟨.hbm, 123, rfl⟩
abbrev main_c_37 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_38 : Ref sig .tc := ⟨.hbm, 128, rfl⟩
abbrev main_v78 : Ref sig .tc := ⟨.hbm, 129, rfl⟩
abbrev main_c_39 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_40 : Ref sig .tc := ⟨.hbm, 134, rfl⟩
abbrev main_v82 : Ref sig .tc := ⟨.hbm, 135, rfl⟩
abbrev main_c_41 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_42 : Ref sig .tc := ⟨.hbm, 140, rfl⟩
abbrev main_v86 : Ref sig .tc := ⟨.hbm, 141, rfl⟩
abbrev main_c_43 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_c_44 : Ref sig .tc := ⟨.hbm, 146, rfl⟩
abbrev main_v90 : Ref sig .tc := ⟨.hbm, 147, rfl⟩
abbrev main_c_45 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_c_46 : Ref sig .tc := ⟨.hbm, 152, rfl⟩
abbrev main_v94 : Ref sig .tc := ⟨.hbm, 153, rfl⟩
abbrev main_c_47 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_48 : Ref sig .tc := ⟨.hbm, 158, rfl⟩
abbrev main_v98 : Ref sig .tc := ⟨.hbm, 159, rfl⟩
abbrev main_c_49 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_50 : Ref sig .tc := ⟨.hbm, 164, rfl⟩
abbrev main_v102 : Ref sig .tc := ⟨.hbm, 165, rfl⟩
abbrev main_c_51 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_c_52 : Ref sig .tc := ⟨.hbm, 170, rfl⟩
abbrev main_v106 : Ref sig .tc := ⟨.hbm, 171, rfl⟩
abbrev main_c_53 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_54 : Ref sig .tc := ⟨.hbm, 176, rfl⟩
abbrev main_v110 : Ref sig .tc := ⟨.hbm, 177, rfl⟩
abbrev main_c_55 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124_0 : Ref sig .tc := ⟨.hbm, 192, rfl⟩
abbrev main_v124_1 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x126 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S126x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S224x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S57x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x15 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x15 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S126x224 : S_.BroadcastsInDim S126x224 (![] : Fin 0 → Fin S126x224.rank)
  bcast_S_S1 : S_.BroadcastsInDim S1 (![] : Fin 0 → Fin S1.rank)
  concatenates_S1_S1_S2_d0 : Shape.Concatenates [S1, S1] S2 0
  bcast_S_S224x56 : S_.BroadcastsInDim S224x56 (![] : Fin 0 → Fin S224x56.rank)
  shapeCasts_S16_S1x16 : S16.ShapeCasts S1x16
  bcast_S1x16_S14x16_0_1 : S1x16.BroadcastsInDim S14x16 (![0, 1] : Fin 2 → Fin S14x16.rank)
  shapeCasts_S14x16_S224 : S14x16.ShapeCasts S224
  shapeCasts_S224_S1x224 : S224.ShapeCasts S1x224
  shapeCasts_S4_S1x4 : S4.ShapeCasts S1x4
  bcast_S1x4_S14x4_0_1 : S1x4.BroadcastsInDim S14x4 (![0, 1] : Fin 2 → Fin S14x4.rank)
  shapeCasts_S14x4_S56 : S14x4.ShapeCasts S56
  shapeCasts_S56_S1x56 : S56.ShapeCasts S1x56
  shapeCasts_S128_S1x128 : S128.ShapeCasts S1x128
  shapeCasts_S30_S1x30 : S30.ShapeCasts S1x30
  inb_S4096x126_S4096x126_0_0 : ∀ a, (![0, 0] : Fin 2 → Nat) a + S4096x126.size a ≤ S4096x126.size a
  h_S4096x126 : 0 < S4096x126.numel
  inb_S126x224_S126x224_0_0 : ∀ a, (![0, 0] : Fin 2 → Nat) a + S126x224.size a ≤ S126x224.size a
  h_S126x224 : 0 < S126x224.numel
  shapeCasts_S126x224_S126x224 : S126x224.ShapeCasts S126x224
  inb_S1x224_S1x224_0_0 : ∀ a, (![0, 0] : Fin 2 → Nat) a + S1x224.size a ≤ S1x224.size a
  h_S1x224 : 0 < S1x224.numel
  shapeCasts_S1x224_S1x224 : S1x224.ShapeCasts S1x224
  broadcasts_S1x224_S4096x224 : S1x224.Broadcasts S4096x224
  inb_S224x56_S224x56_0_0 : ∀ a, (![0, 0] : Fin 2 → Nat) a + S224x56.size a ≤ S224x56.size a
  h_S224x56 : 0 < S224x56.numel
  shapeCasts_S224x56_S224x56 : S224x56.ShapeCasts S224x56
  inb_S1x56_S1x56_0_0 : ∀ a, (![0, 0] : Fin 2 → Nat) a + S1x56.size a ≤ S1x56.size a
  h_S1x56 : 0 < S1x56.numel
  shapeCasts_S1x56_S1x56 : S1x56.ShapeCasts S1x56
  broadcasts_S1x56_S4096x56 : S1x56.Broadcasts S4096x56
  inb_S4096x1_S4096x1_0_0 : ∀ a, (![0, 0] : Fin 2 → Nat) a + S4096x1.size a ≤ S4096x1.size a
  h_S4096x1 : 0 < S4096x1.numel
  concatenates_S4096x56_S4096x1_S4096x57_d1 : Shape.Concatenates [S4096x56, S4096x1] S4096x57 1
  inb_S57x128_S57x128_0_0 : ∀ a, (![0, 0] : Fin 2 → Nat) a + S57x128.size a ≤ S57x128.size a
  h_S57x128 : 0 < S57x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x30_S128x30_0_0 : ∀ a, (![0, 0] : Fin 2 → Nat) a + S128x30.size a ≤ S128x30.size a
  h_S128x30 : 0 < S128x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S4096x30 : S1x30.Broadcasts S4096x30
  slices_S4096x30_o0_0_S4096x15 : S4096x30.Slices ![0, 0] S4096x15
  slices_S4096x30_o0_15_S4096x15 : S4096x30.Slices ![0, 15] S4096x15
  inb_S4096x15_S4096x15_0_0 : ∀ a, (![0, 0] : Fin 2 → Nat) a + S4096x15.size a ≤ S4096x15.size a
  h_S4096x15 : 0 < S4096x15.numel
  scatter_S126x224_S2_S9x16_01_n_01_0_wf : ScatterDims.WF S126x224 S2 S9x16 [0, 1] [] [0, 1] 0
  scatter_S224x56_S2_S16x4_01_n_01_0_wf : ScatterDims.WF S224x56 S2 S16x4 [0, 1] [] [0, 1] 0
  dot_S4096x126_S126x224_S4096x224_1_0_0_1_n_n_wf : DotDims.WF S4096x126 S126x224 S4096x224 [1] [0] [0] [1] [] []
  dot_S4096x224_S224x56_S4096x56_1_0_0_1_n_n_wf : DotDims.WF S4096x224 S224x56 S4096x56 [1] [0] [0] [1] [] []
  dot_S4096x57_S57x128_S4096x128_1_0_0_1_n_n_wf : DotDims.WF S4096x57 S57x128 S4096x128 [1] [0] [0] [1] [] []
  dot_S4096x128_S128x30_S4096x30_1_0_0_1_n_n_wf : DotDims.WF S4096x128 S128x30 S4096x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x126.size a ≤ S262144x126.size a
  hwx0_0 : ∀ i : grid0.Coords, EltTy.bits .f32 = 32 ∨ (Rect.block (s := S262144x126) S4096x126.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S126x224.size a ≤ S126x224.size a
  hwx0_2 : ∀ i : grid0.Coords, EltTy.bits .f32 = 32 ∨ (Rect.block (s := S126x224) S126x224.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x224.size a ≤ S1x224.size a
  hwx0_3 : ∀ i : grid0.Coords, EltTy.bits .f32 = 32 ∨ (Rect.block (s := S1x224) S1x224.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S224x56.size a ≤ S224x56.size a
  hwx0_4 : ∀ i : grid0.Coords, EltTy.bits .f32 = 32 ∨ (Rect.block (s := S224x56) S224x56.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x56.size a ≤ S1x56.size a
  hwx0_5 : ∀ i : grid0.Coords, EltTy.bits .f32 = 32 ∨ (Rect.block (s := S1x56) S1x56.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S57x128.size a ≤ S57x128.size a
  hwx0_6 : ∀ i : grid0.Coords, EltTy.bits .f32 = 32 ∨ (Rect.block (s := S57x128) S57x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x30.size a ≤ S128x30.size a
  hwx0_8 : ∀ i : grid0.Coords, EltTy.bits .f32 = 32 ∨ (Rect.block (s := S128x30) S128x30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x30.size a ≤ S1x30.size a
  hwx0_9 : ∀ i : grid0.Coords, EltTy.bits .f32 = 32 ∨ (Rect.block (s := S1x30) S1x30.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x15.size a ≤ S262144x15.size a
  hwx0_10 : ∀ i : grid0.Coords, EltTy.bits .f32 = 32 ∨ (Rect.block (s := S262144x15) S4096x15.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x15.size a ≤ S262144x15.size a
  hwx0_11 : ∀ i : grid0.Coords, EltTy.bits .f32 = 32 ∨ (Rect.block (s := S262144x15) S4096x15.size (cc0_transform_11 i) (hinb0_11 i)).WholeWords (EltTy.packing .f32)

variable [Facts₀]

def scatter_S126x224_S2_S9x16_01_n_01_0 : ScatterDims S126x224 S2 S9x16 where
  updateWindowDims := [0, 1]
  insertedWindowDims := []
  scatterDimsToOperandDims := [0, 1]
  indexVectorDim := 0
  wf := scatter_S126x224_S2_S9x16_01_n_01_0_wf
def scatter_S224x56_S2_S16x4_01_n_01_0 : ScatterDims S224x56 S2 S16x4 where
  updateWindowDims := [0, 1]
  insertedWindowDims := []
  scatterDimsToOperandDims := [0, 1]
  indexVectorDim := 0
  wf := scatter_S224x56_S2_S16x4_01_n_01_0_wf
def dot_S4096x126_S126x224_S4096x224_1_0_0_1_n_n : DotDims S4096x126 S126x224 S4096x224 where
  lhsContracting := [1]
  rhsContracting := [0]
  lhsNonContracting := [0]
  rhsNonContracting := [1]
  lhsBatch := []
  rhsBatch := []
  wf := dot_S4096x126_S126x224_S4096x224_1_0_0_1_n_n_wf
def dot_S4096x224_S224x56_S4096x56_1_0_0_1_n_n : DotDims S4096x224 S224x56 S4096x56 where
  lhsContracting := [1]
  rhsContracting := [0]
  lhsNonContracting := [0]
  rhsNonContracting := [1]
  lhsBatch := []
  rhsBatch := []
  wf := dot_S4096x224_S224x56_S4096x56_1_0_0_1_n_n_wf
def dot_S4096x57_S57x128_S4096x128_1_0_0_1_n_n : DotDims S4096x57 S57x128 S4096x128 where
  lhsContracting := [1]
  rhsContracting := [0]
  lhsNonContracting := [0]
  rhsNonContracting := [1]
  lhsBatch := []
  rhsBatch := []
  wf := dot_S4096x57_S57x128_S4096x128_1_0_0_1_n_n_wf
def dot_S4096x128_S128x30_S4096x30_1_0_0_1_n_n : DotDims S4096x128 S128x30 S4096x30 where
  lhsContracting := [1]
  rhsContracting := [0]
  lhsNonContracting := [0]
  rhsNonContracting := [1]
  lhsBatch := []
  rhsBatch := []
  wf := dot_S4096x128_S128x30_S4096x30_1_0_0_1_n_n_wf

abbrev win0_0 : Pipeline.Window sig grid0 :=
  Pipeline.Window.ofSpec (Memref.whole main_arg0) S4096x126.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S126x224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v117) S1x224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v113) S224x56.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v121) S1x56.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S57x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v122) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v123) S1x30.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v124_0) S4096x15.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v124_1) S4096x15.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x126 : Shape := ⟨2, ![262144, 126]⟩
abbrev S262144x1 : Shape := ⟨2, ![262144, 1]⟩
abbrev S9x16 : Shape := ⟨2, ![9, 16]⟩
abbrev S16 : Shape := ⟨1, ![16]⟩
abbrev S16x4 : Shape := ⟨2, ![16, 4]⟩
abbrev S4 : Shape := ⟨1, ![4]⟩
abbrev S57x128 : Shape := ⟨2, ![57, 128]⟩
abbrev S128 : Shape := ⟨1, ![128]⟩
abbrev S128x30 : Shape := ⟨2, ![128, 30]⟩
abbrev S30 : Shape := ⟨1, ![30]⟩
abbrev S262144x14x9 : Shape := ⟨3, ![262144, 14, 9]⟩
abbrev S262144x14x16 : Shape := ⟨3, ![262144, 14, 16]⟩
abbrev S1x1x16 : Shape := ⟨3, ![1, 1, 16]⟩
abbrev S_ : Shape := ⟨0, ![]⟩
abbrev S262144x14x4 : Shape := ⟨3, ![262144, 14, 4]⟩
abbrev S1x1x4 : Shape := ⟨3, ![1, 1, 4]⟩
abbrev S262144x56 : Shape := ⟨2, ![262144, 56]⟩
abbrev S262144x57 : Shape := ⟨2, ![262144, 57]⟩
abbrev S262144x128 : Shape := ⟨2, ![262144, 128]⟩
abbrev S1x128 : Shape := ⟨2, ![1, 128]⟩
abbrev S262144x30 : Shape := ⟨2, ![262144, 30]⟩
abbrev S1x30 : Shape := ⟨2, ![1, 30]⟩
abbrev S262144x15 : Shape := ⟨2, ![262144, 15]⟩

abbrev nBuf : Space → Nat
  | .hbm => 42
  | .vmem => 0
  | .smem => 0
  | _ => 0

abbrev bufTy : (tb : Table) → Fin (tcTables nBuf tb) → BufTy
  | .hbm, ⟨0, _⟩ => ⟨S262144x126, .f32⟩
  | .hbm, ⟨1, _⟩ => ⟨S262144x1, .f32⟩
  | .hbm, ⟨2, _⟩ => ⟨S9x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S57x128, .f32⟩
  | .hbm, ⟨7, _⟩ => ⟨S128, .f32⟩
  | .hbm, ⟨8, _⟩ => ⟨S128x30, .f32⟩
  | .hbm, ⟨9, _⟩ => ⟨S30, .f32⟩
  | .hbm, ⟨10, _⟩ => ⟨S262144x14x9, .f32⟩
  | .hbm, ⟨11, _⟩ => ⟨S262144x14x16, .f32⟩
  | .hbm, ⟨12, _⟩ => ⟨S1x1x16, .f32⟩
  | .hbm, ⟨13, _⟩ => ⟨S262144x14x16, .f32⟩
  | .hbm, ⟨14, _⟩ => ⟨S262144x14x16, .f32⟩
  | .hbm, ⟨15, _⟩ => ⟨S_, .f32⟩
  | .hbm, ⟨16, _⟩ => ⟨S262144x14x16, .f32⟩
  | .hbm, ⟨17, _⟩ => ⟨S262144x14x16, .f32⟩
  | .hbm, ⟨18, _⟩ => ⟨S262144x14x4, .f32⟩
  | .hbm, ⟨19, _⟩ => ⟨S1x1x4, .f32⟩
  | .hbm, ⟨20, _⟩ => ⟨S262144x14x4, .f32⟩
  | .hbm, ⟨21, _⟩ => ⟨S262144x14x4, .f32⟩
  | .hbm, ⟨22, _⟩ => ⟨S_, .f32⟩
  | .hbm, ⟨23, _⟩ => ⟨S262144x14x4, .f32⟩
  | .hbm, ⟨24, _⟩ => ⟨S262144x14x4, .f32⟩
  | .hbm, ⟨25, _⟩ => ⟨S262144x56, .f32⟩
  | .hbm, ⟨26, _⟩ => ⟨S262144x57, .f32⟩
  | .hbm, ⟨27, _⟩ => ⟨S262144x128, .f32⟩
  | .hbm, ⟨28, _⟩ => ⟨S1x128, .f32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S262144x128, .f32⟩
  | .hbm, ⟨33, _⟩ => ⟨S262144x128, .f32⟩
  | .hbm, ⟨34, _⟩ => ⟨S262144x30, .f32⟩
  | .hbm, ⟨35, _⟩ => ⟨S1x30, .f32⟩
  | .hbm, ⟨36, _⟩ => ⟨S262144x30, .f32⟩
  | .hbm, ⟨37, _⟩ => ⟨S262144x30, .f32⟩
  | .hbm, ⟨38, _⟩ => ⟨S262144x15, .f32⟩
  | .hbm, ⟨39, _⟩ => ⟨S262144x15, .f32⟩
  | .hbm, ⟨40, _⟩ => ⟨S262144x15, .f32⟩
  | .hbm, ⟨41, _⟩ => ⟨S262144x15, .f32⟩
  | _, _ => ⟨S262144x126, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  shapeCasts_S262144x126_S262144x14x9 : S262144x126.ShapeCasts S262144x14x9
  bcast_S16_S1x1x16_2 : S16.BroadcastsInDim S1x1x16 (![2] : Fin 1 → Fin S1x1x16.rank)
  bcast_S1x1x16_S262144x14x16_0_1_2 : S1x1x16.BroadcastsInDim S262144x14x16 (![0, 1, 2] : Fin 3 → Fin S262144x14x16.rank)
  bcast_S_S262144x14x16 : S_.BroadcastsInDim S262144x14x16 (![] : Fin 0 → Fin S262144x14x16.rank)
  bcast_S4_S1x1x4_2 : S4.BroadcastsInDim S1x1x4 (![2] : Fin 1 → Fin S1x1x4.rank)
  bcast_S1x1x4_S262144x14x4_0_1_2 : S1x1x4.BroadcastsInDim S262144x14x4 (![0, 1, 2] : Fin 3 → Fin S262144x14x4.rank)
  bcast_S_S262144x14x4 : S_.BroadcastsInDim S262144x14x4 (![] : Fin 0 → Fin S262144x14x4.rank)
  shapeCasts_S262144x14x4_S262144x56 : S262144x14x4.ShapeCasts S262144x56
  concatenates_S262144x56_S262144x1_S262144x57_d1 : Shape.Concatenates [S262144x56, S262144x1] S262144x57 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S30_S1x30_1 : S30.BroadcastsInDim S1x30 (![1] : Fin 1 → Fin S1x30.rank)
  bcast_S1x30_S262144x30_0_1 : S1x30.BroadcastsInDim S262144x30 (![0, 1] : Fin 2 → Fin S262144x30.rank)
  slices_S262144x30_S262144x15_0_0 : S262144x30.Slices ![0, 0] S262144x15
  slices_S262144x30_S262144x15_0_15 : S262144x30.Slices ![0, 15] S262144x15
  dot_S262144x14x9_S9x16_S262144x14x16_2_0_01_1_n_n_wf : DotDims.WF S262144x14x9 S9x16 S262144x14x16 [2] [0] [0, 1] [1] [] []
  dot_S262144x14x16_S16x4_S262144x14x4_2_0_01_1_n_n_wf : DotDims.WF S262144x14x16 S16x4 S262144x14x4 [2] [0] [0, 1] [1] [] []
  dot_S262144x57_S57x128_S262144x128_1_0_0_1_n_n_wf : DotDims.WF S262144x57 S57x128 S262144x128 [1] [0] [0] [1] [] []
  dot_S262144x128_S128x30_S262144x30_1_0_0_1_n_n_wf : DotDims.WF S262144x128 S128x30 S262144x30 [1] [0] [0] [1] [] []

variable [Facts₀]

def dot_S262144x14x9_S9x16_S262144x14x16_2_0_01_1_n_n : DotDims S262144x14x9 S9x16 S262144x14x16 where
  lhsContracting := [2]
  rhsContracting := [0]
  lhsNonContracting := [0, 1]
  rhsNonContracting := [1]
  lhsBatch := []
  rhsBatch := []
  wf := dot_S262144x14x9_S9x16_S262144x14x16_2_0_01_1_n_n_wf
def dot_S262144x14x16_S16x4_S262144x14x4_2_0_01_1_n_n : DotDims S262144x14x16 S16x4 S262144x14x4 where
  lhsContracting := [2]
  rhsContracting := [0]
  lhsNonContracting := [0, 1]
  rhsNonContracting := [1]
  lhsBatch := []
  rhsBatch := []
  wf := dot_S262144x14x16_S16x4_S262144x14x4_2_0_01_1_n_n_wf
def dot_S262144x57_S57x128_S262144x128_1_0_0_1_n_n : DotDims S262144x57 S57x128 S262144x128 where
  lhsContracting := [1]
  rhsContracting := [0]
  lhsNonContracting := [0]
  rhsNonContracting := [1]
  lhsBatch := []
  rhsBatch := []
  wf := dot_S262144x57_S57x128_S262144x128_1_0_0_1_n_n_wf
def dot_S262144x128_S128x30_S262144x30_1_0_0_1_n_n : DotDims S262144x128 S128x30 S262144x30 where
  lhsContracting := [1]
  rhsContracting := [0]
  lhsNonContracting := [0]
  rhsNonContracting := [1]
  lhsBatch := []
  rhsBatch := []
  wf := dot_S262144x128_S128x30_S262144x30_1_0_0_1_n_n_wf

class Facts : Prop extends Facts₀ where

variable [Facts]
-- ==== Proof.LibScatterSet.lean ====
/-
  A WHOLE 2-D WINDOW WRITTEN INTO A MATRIX AT ONE START POSITION, READ AT AN INDEX (general lemma; it mentions no program).

  The scatter whose body returns the update (a "set"), with ONE start index (o0, o1) read off a vector of two words, and
  the update's two axes both window axes: entry (k, j) of the result is the update's entry (k - o0, j - o1) when (k, j)
  lies in the window [o0, o0 + r) × [o1, o1 + c), and the operand's entry (k, j) otherwise. The window is assumed to fit
  inside the operand, so no update is dropped and distinct update entries land on distinct positions.
-/
import Idealize.ShloMosaic.PureOps.ShapeOps
import Idealize.ShloMosaic.Lib.ValueIdx

namespace Cert.Lib.ScatterSet

open Idealize.ShloMosaic Idealize.ShloMosaic.ValueIdx

/-- A left fold whose step writes `v n` at position `ρ n`, over a list none of whose positions is `i'`, leaves the
    value at `i'` as it was. -/
theorem foldl_set_apply_of_forall_ne {ι β α : Type} [DecidableEq β] (g : (β → α) → ι → β → α) (ρ : ι → β) (v : ι → α)
    (hg : ∀ r n i, g r n i = if i = ρ n then v n else r i) (i' : β) :
    ∀ (L : List ι) (x : β → α), (∀ n ∈ L, ρ n ≠ i') → (L.foldl g x) i' = x i' := by
  intro L
  induction L with
  | nil => intro x _; rfl
  | cons m L ih =>
    intro x h
    have hne : i' ≠ ρ m := fun e => h m List.mem_cons_self e.symm
    rw [List.foldl_cons, ih _ (fun n hn => h n (List.mem_cons_of_mem _ hn)), hg, if_neg hne]

/-- A left fold whose step writes `v n` at position `ρ n`, over a list without repeats on which `ρ` is injective:
    at the position of a member `n` the result is `v n`, since no later step touches that position. -/
theorem foldl_set_apply_of_mem {ι β α : Type} [DecidableEq β] (g : (β → α) → ι → β → α) (ρ : ι → β) (v : ι → α)
    (hg : ∀ r n i, g r n i = if i = ρ n then v n else r i) :
    ∀ (L : List ι) (x : β → α), L.Nodup → (∀ a ∈ L, ∀ b ∈ L, ρ a = ρ b → a = b) → ∀ n ∈ L,
      (L.foldl g x) (ρ n) = v n := by
  intro L
  induction L with
  | nil => intro x _ _ n hn; cases hn
  | cons m L ih =>
    intro x hnd hinj n hn
    rw [List.foldl_cons]
    rw [List.nodup_cons] at hnd
    rcases List.mem_cons.1 hn with rfl | hn'
    · rw [foldl_set_apply_of_forall_ne g ρ v hg (ρ n) L _ ?_, hg, if_pos rfl]
      intro n' hn' e
      have hEq := hinj n' (List.mem_cons_of_mem _ hn') n List.mem_cons_self e
      subst hEq; exact hnd.1 hn'
    · exact ih _ hnd.2 (fun a ha b hb => hinj a (List.mem_cons_of_mem _ ha) b (List.mem_cons_of_mem _ hb)) n hn'

/-- With both update axes window axes, no inserted axis, and the one start index `(o0, o1)` read off the two words of
    the index vector, update index `jj` lands at `(o0 + jj 0, o1 + jj 1)`; the window fits, so it is never dropped. -/
theorem resultIdx?_window {R C r c w : ℕ}
    (wf : ScatterDims.WF (⟨2, ![R, C]⟩ : Shape) (⟨1, ![2]⟩ : Shape) (⟨2, ![r, c]⟩ : Shape) [0, 1] [] [0, 1] 0)
    (idx : IVec (⟨1, ![2]⟩ : Shape) w)
    (o0 o1 : ℕ) (h0 : (idx (ix1 (0 : Fin 2))).toInt = (o0 : ℤ)) (h1 : (idx (ix1 (1 : Fin 2))).toInt = (o1 : ℤ))
    (hR : o0 + r ≤ R) (hC : o1 + c ≤ C) (jj : (⟨2, ![r, c]⟩ : Shape).Idx) :
    (⟨[0, 1], [], [0, 1], 0, wf⟩ : ScatterDims (⟨2, ![R, C]⟩ : Shape) (⟨1, ![2]⟩ : Shape) (⟨2, ![r, c]⟩ : Shape)).resultIdx? jj idx
      = some (ix2 (⟨o0 + (jj 0).val, by have := idx2_lt0 jj; omega⟩ : Fin R) (⟨o1 + (jj 1).val, by have := idx2_lt1 jj; omega⟩ : Fin C)) := by
  have hm0 : (0 : Fin 2) ∈ ([0, 1] : List (Fin 2)) := by decide
  have hm1 : (1 : Fin 2) ∈ ([0, 1] : List (Fin 2)) := by decide
  have hk0 : (0 : Fin (⟨2, ![R, C]⟩ : Shape).rank) ∈ (⟨2, ![R, C]⟩ : Shape).kept [] := by
    show (0 : Fin 2) ∈ (List.finRange 2).filter (· ∉ ([] : List (Fin 2)))
    decide
  have hk1 : (1 : Fin (⟨2, ![R, C]⟩ : Shape).rank) ∈ (⟨2, ![R, C]⟩ : Shape).kept [] := by
    show (1 : Fin 2) ∈ (List.finRange 2).filter (· ∉ ([] : List (Fin 2)))
    decide
  have hs0 : (⟨[0, 1], [], [0, 1], 0, wf⟩ : ScatterDims (⟨2, ![R, C]⟩ : Shape) (⟨1, ![2]⟩ : Shape) (⟨2, ![r, c]⟩ : Shape)).start jj idx 0 = (o0 : ℤ) := by
    unfold ScatterDims.start
    rw [dif_pos hm0, ← h0]
    congr 2
    funext b
    match b with
    | ⟨0, _⟩ => rfl
  have hs1 : (⟨[0, 1], [], [0, 1], 0, wf⟩ : ScatterDims (⟨2, ![R, C]⟩ : Shape) (⟨1, ![2]⟩ : Shape) (⟨2, ![r, c]⟩ : Shape)).start jj idx 1 = (o1 : ℤ) := by
    unfold ScatterDims.start
    rw [dif_pos hm1, ← h1]
    congr 2
    funext b
    match b with
    | ⟨0, _⟩ => rfl
  have hw0 : (⟨[0, 1], [], [0, 1], 0, wf⟩ : ScatterDims (⟨2, ![R, C]⟩ : Shape) (⟨1, ![2]⟩ : Shape) (⟨2, ![r, c]⟩ : Shape)).window jj 0 = (jj 0).val := by
    unfold ScatterDims.window
    rw [dif_pos hk0]
    rfl
  have hw1 : (⟨[0, 1], [], [0, 1], 0, wf⟩ : ScatterDims (⟨2, ![R, C]⟩ : Shape) (⟨1, ![2]⟩ : Shape) (⟨2, ![r, c]⟩ : Shape)).window jj 1 = (jj 1).val := by
    unfold ScatterDims.window
    rw [dif_pos hk1]
    rfl
  have hj0 := idx2_lt0 jj
  have hj1 := idx2_lt1 jj
  unfold ScatterDims.resultIdx?
  have hall : ∀ a : Fin (⟨2, ![R, C]⟩ : Shape).rank,
      0 ≤ (⟨[0, 1], [], [0, 1], 0, wf⟩ : ScatterDims (⟨2, ![R, C]⟩ : Shape) (⟨1, ![2]⟩ : Shape) (⟨2, ![r, c]⟩ : Shape)).start jj idx a + (⟨[0, 1], [], [0, 1], 0, wf⟩ : ScatterDims (⟨2, ![R, C]⟩ : Shape) (⟨1, ![2]⟩ : Shape) (⟨2, ![r, c]⟩ : Shape)).window jj a ∧
        (⟨[0, 1], [], [0, 1], 0, wf⟩ : ScatterDims (⟨2, ![R, C]⟩ : Shape) (⟨1, ![2]⟩ : Shape) (⟨2, ![r, c]⟩ : Shape)).start jj idx a + (⟨[0, 1], [], [0, 1], 0, wf⟩ : ScatterDims (⟨2, ![R, C]⟩ : Shape) (⟨1, ![2]⟩ : Shape) (⟨2, ![r, c]⟩ : Shape)).window jj a < (⟨2, ![R, C]⟩ : Shape).size a := by
    refine Fin.forall_fin_two.2 ⟨?_, ?_⟩
    · rw [hs0, hw0]
      show _ ∧ _ < (R : ℤ)
      omega
    · rw [hs1, hw1]
      show _ ∧ _ < (C : ℤ)
      omega
  rw [dif_pos hall]
  congr 1
  funext a
  revert a
  refine Fin.forall_fin_two.2 ⟨?_, ?_⟩
  · apply Fin.ext
    show ((⟨[0, 1], [], [0, 1], 0, wf⟩ : ScatterDims (⟨2, ![R, C]⟩ : Shape) (⟨1, ![2]⟩ : Shape) (⟨2, ![r, c]⟩ : Shape)).start jj idx 0 + (⟨[0, 1], [], [0, 1], 0, wf⟩ : ScatterDims (⟨2, ![R, C]⟩ : Shape) (⟨1, ![2]⟩ : Shape) (⟨2, ![r, c]⟩ : Shape)).window jj 0).toNat = o0 + (jj 0).val
    rw [hs0, hw0]
    omega
  · apply Fin.ext
    show ((⟨[0, 1], [], [0, 1], 0, wf⟩ : ScatterDims (⟨2, ![R, C]⟩ : Shape) (⟨1, ![2]⟩ : Shape) (⟨2, ![r, c]⟩ : Shape)).start jj idx 1 + (⟨[0, 1], [], [0, 1], 0, wf⟩ : ScatterDims (⟨2, ![R, C]⟩ : Shape) (⟨1, ![2]⟩ : Shape) (⟨2, ![r, c]⟩ : Shape)).window jj 1).toNat = o1 + (jj 1).val
    rw [hs1, hw1]
    omega

/-- The scatter whose body returns the update, with both update axes window axes, no inserted axes, and ONE start index
    `(o0, o1)` read off the two words of the index vector, writes the whole `r × c` update as a window into the
    `R × C` operand: when the window fits inside the operand, entry `(k, j)` of the result is the update's entry
    `(k - o0, j - o1)` if `(k, j)` lies in the window `[o0, o0 + r) × [o1, o1 + c)`, and the operand's entry
    `(k, j)` otherwise. (Update index `jj` lands at `(o0 + jj 0, o1 + jj 1)`: distinct update indices land on distinct
    positions, so the order of the writes does not matter.) -/
theorem scatter_window_apply {α : Type} {R C r c w : ℕ}
    (d : ScatterDims (⟨2, ![R, C]⟩ : Shape) (⟨1, ![2]⟩ : Shape) (⟨2, ![r, c]⟩ : Shape))
    (huw : d.updateWindowDims = [0, 1]) (hiw : d.insertedWindowDims = []) (hsd : d.scatterDimsToOperandDims = [0, 1])
    (hiv : d.indexVectorDim = 0)
    (x : (⟨2, ![R, C]⟩ : Shape).Idx → α) (idx : IVec (⟨1, ![2]⟩ : Shape) w) (upd : (⟨2, ![r, c]⟩ : Shape).Idx → α)
    (o0 o1 : ℕ) (h0 : (idx (ix1 (0 : Fin 2))).toInt = (o0 : ℤ)) (h1 : (idx (ix1 (1 : Fin 2))).toInt = (o1 : ℤ))
    (hR : o0 + r ≤ R) (hC : o1 + c ≤ C) (k : Fin R) (j : Fin C) :
    Host.scatter d (fun _ b => b) x idx upd (ix2 k j)
      = if h : (o0 ≤ k.val ∧ k.val < o0 + r) ∧ (o1 ≤ j.val ∧ j.val < o1 + c) then
          upd (ix2 (⟨k.val - o0, by omega⟩ : Fin r) (⟨j.val - o1, by omega⟩ : Fin c))
        else x (ix2 k j) := by
  obtain ⟨uw, iw, sd, iv, wf⟩ := d
  simp only at huw hiw hsd hiv
  subst huw hiw hsd hiv
  have hres := fun jj => resultIdx?_window wf idx o0 o1 h0 h1 hR hC jj
  unfold Host.scatter
  simp only [hres]
  -- the position the update entry numbered `n` lands at, and the value written there
  let ρ : Fin (⟨2, ![r, c]⟩ : Shape).numel → (⟨2, ![R, C]⟩ : Shape).Idx := fun n =>
    ix2 (⟨o0 + (((⟨2, ![r, c]⟩ : Shape).rowMajor.symm n) 0).val, by have := idx2_lt0 ((⟨2, ![r, c]⟩ : Shape).rowMajor.symm n); omega⟩ : Fin R)
      (⟨o1 + (((⟨2, ![r, c]⟩ : Shape).rowMajor.symm n) 1).val, by have := idx2_lt1 ((⟨2, ![r, c]⟩ : Shape).rowMajor.symm n); omega⟩ : Fin C)
  let v : Fin (⟨2, ![r, c]⟩ : Shape).numel → α := fun n => upd ((⟨2, ![r, c]⟩ : Shape).rowMajor.symm n)
  by_cases h : (o0 ≤ k.val ∧ k.val < o0 + r) ∧ (o1 ≤ j.val ∧ j.val < o1 + c)
  · rw [dif_pos h]
    -- the update entry that lands at `(k, j)`
    let jj0 : (⟨2, ![r, c]⟩ : Shape).Idx := ix2 (⟨k.val - o0, by omega⟩ : Fin r) (⟨j.val - o1, by omega⟩ : Fin c)
    have hρ : ρ ((⟨2, ![r, c]⟩ : Shape).rowMajor jj0) = ix2 k j := by
      funext t
      revert t
      refine Fin.forall_fin_two.2 ⟨Fin.ext ?_, Fin.ext ?_⟩
      · show o0 + (((⟨2, ![r, c]⟩ : Shape).rowMajor.symm ((⟨2, ![r, c]⟩ : Shape).rowMajor jj0)) 0).val = k.val
        rw [Equiv.symm_apply_apply]
        show o0 + (k.val - o0) = k.val
        omega
      · show o1 + (((⟨2, ![r, c]⟩ : Shape).rowMajor.symm ((⟨2, ![r, c]⟩ : Shape).rowMajor jj0)) 1).val = j.val
        rw [Equiv.symm_apply_apply]
        show o1 + (j.val - o1) = j.val
        omega
    -- distinct update entries land at distinct positions
    have hinj : ∀ a ∈ List.finRange (⟨2, ![r, c]⟩ : Shape).numel, ∀ b ∈ List.finRange (⟨2, ![r, c]⟩ : Shape).numel, ρ a = ρ b → a = b := by
      intro a _ b _ e
      have e0 := congrArg Fin.val (congrFun e (0 : Fin 2))
      have e1 := congrArg Fin.val (congrFun e (1 : Fin 2))
      change o0 + (((⟨2, ![r, c]⟩ : Shape).rowMajor.symm a) 0).val = o0 + (((⟨2, ![r, c]⟩ : Shape).rowMajor.symm b) 0).val at e0
      change o1 + (((⟨2, ![r, c]⟩ : Shape).rowMajor.symm a) 1).val = o1 + (((⟨2, ![r, c]⟩ : Shape).rowMajor.symm b) 1).val at e1
      apply (⟨2, ![r, c]⟩ : Shape).rowMajor.symm.injective
      funext t
      revert t
      refine Fin.forall_fin_two.2 ⟨Fin.ext ?_, Fin.ext ?_⟩
      · omega
      · omega
    have key := foldl_set_apply_of_mem _ ρ v (fun _ _ _ => rfl) (List.finRange (⟨2, ![r, c]⟩ : Shape).numel) x
      (List.nodup_finRange _) hinj ((⟨2, ![r, c]⟩ : Shape).rowMajor jj0) (List.mem_finRange _)
    rw [hρ] at key
    refine key.trans ?_
    show upd ((⟨2, ![r, c]⟩ : Shape).rowMajor.symm ((⟨2, ![r, c]⟩ : Shape).rowMajor jj0)) = upd jj0
    rw [Equiv.symm_apply_apply]
  · rw [dif_neg h]
    refine foldl_set_apply_of_forall_ne _ ρ v (fun _ _ _ => rfl) (ix2 k j) (List.finRange (⟨2, ![r, c]⟩ : Shape).numel) x ?_
    intro n _ e
    have e0 := congrArg Fin.val (congrFun e (0 : Fin 2))
    have e1 := congrArg Fin.val (congrFun e (1 : Fin 2))
    change o0 + (((⟨2, ![r, c]⟩ : Shape).rowMajor.symm n) 0).val = k.val at e0
    change o1 + (((⟨2, ![r, c]⟩ : Shape).rowMajor.symm n) 1).val = j.val at e1
    have hj0 := idx2_lt0 ((⟨2, ![r, c]⟩ : Shape).rowMajor.symm n)
    have hj1 := idx2_lt1 ((⟨2, ![r, c]⟩ : Shape).rowMajor.symm n)
    exact h ⟨⟨by omega, by omega⟩, by omega, by omega⟩

end Cert.Lib.ScatterSet
-- ==== Proof.LibBlockDiagScatter.lean ====
/-
  A BLOCK-DIAGONAL MATRIX BUILT ONE DIAGONAL BLOCK AT A TIME (general lemmas; they mention no program).

  Start from the zero matrix [R, C] and write the same r × c matrix W at the positions (0, 0), (r, c), (2r, 2c), …, one
  "set" scatter of the whole window per block. After n writes the matrix holds W in its first n diagonal blocks and zero
  everywhere else: entry (k, j) is W (k mod r, j mod c) when k / r = j / c < n, and 0 otherwise. One more write, at
  (r n, c n), fills block n and touches nothing else, because the window [r n, r n + r) × [c n, c n + c) is exactly the
  set of positions with k / r = j / c = n.
-/
import proofs.«163774_j12446815223911_1_alg».proof.Proof.LibScatterSet

namespace Cert.Lib.BlockDiagScatter

open Idealize.ShloMosaic Idealize.ShloMosaic.ValueIdx Cert.Lib.ScatterSet

variable {α : Type} [Zero α] {r c R C : ℕ}

/-- The matrix [R, C] with W in its first n diagonal blocks and zero elsewhere. -/
def bdMat (hr : 0 < r) (hc : 0 < c) (n : ℕ) (W : (⟨2, ![r, c]⟩ : Shape).Idx → α) : (⟨2, ![R, C]⟩ : Shape).Idx → α :=
  fun y => if (y 0).val / r = (y 1).val / c ∧ (y 0).val / r < n then
      W (ix2 (⟨(y 0).val % r, Nat.mod_lt _ hr⟩ : Fin r) (⟨(y 1).val % c, Nat.mod_lt _ hc⟩ : Fin c))
    else 0

theorem bdMat_apply (hr : 0 < r) (hc : 0 < c) (n : ℕ) (W : (⟨2, ![r, c]⟩ : Shape).Idx → α) (k : Fin R) (j : Fin C) :
    bdMat hr hc n W (ix2 k j) = if k.val / r = j.val / c ∧ k.val / r < n then
      W (ix2 (⟨k.val % r, Nat.mod_lt _ hr⟩ : Fin r) (⟨j.val % c, Nat.mod_lt _ hc⟩ : Fin c)) else 0 := rfl

/-- With no block written the matrix is zero. -/
theorem bdMat_zero (hr : 0 < r) (hc : 0 < c) (W : (⟨2, ![r, c]⟩ : Shape).Idx → α) :
    bdMat (R := R) (C := C) hr hc 0 W = fun _ => 0 := by
  funext y
  unfold bdMat
  rw [if_neg]
  exact fun h => Nat.not_lt_zero _ h.2

/-- Position k lies in [r n, r n + r) exactly when k / r = n. -/
theorem div_eq_iff_window (hr : 0 < r) (k n : ℕ) : k / r = n ↔ r * n ≤ k ∧ k < r * n + r := by
  constructor
  · intro h
    have h1 := Nat.div_add_mod k r
    have h2 := Nat.mod_lt k hr
    rw [h] at h1
    omega
  · intro h
    refine Nat.div_eq_of_lt_le ?_ ?_
    · rw [Nat.mul_comm]; exact h.1
    · rw [Nat.succ_mul, Nat.mul_comm n r]; exact h.2

/-- Writing W at (r n, c n) into the matrix with n blocks gives the matrix with n + 1 blocks. -/
theorem bdMat_step {w : ℕ} (hr : 0 < r) (hc : 0 < c)
    (d : ScatterDims (⟨2, ![R, C]⟩ : Shape) (⟨1, ![2]⟩ : Shape) (⟨2, ![r, c]⟩ : Shape))
    (huw : d.updateWindowDims = [0, 1]) (hiw : d.insertedWindowDims = []) (hsd : d.scatterDimsToOperandDims = [0, 1])
    (hiv : d.indexVectorDim = 0) (idx : IVec (⟨1, ![2]⟩ : Shape) w) (n : ℕ)
    (h0 : (idx (ix1 (0 : Fin 2))).toInt = ((r * n : ℕ) : ℤ)) (h1 : (idx (ix1 (1 : Fin 2))).toInt = ((c * n : ℕ) : ℤ))
    (hR : r * n + r ≤ R) (hC : c * n + c ≤ C) (W : (⟨2, ![r, c]⟩ : Shape).Idx → α) :
    Host.scatter d (fun _ b => b) (bdMat (R := R) (C := C) hr hc n W) idx W = bdMat hr hc (n + 1) W := by
  funext y
  obtain ⟨k, j, rfl⟩ : ∃ (k : Fin R) (j : Fin C), y = ix2 k j := ⟨y 0, y 1, eq_ix2 y⟩
  rw [scatter_window_apply d huw hiw hsd hiv _ idx W (r * n) (c * n) h0 h1 hR hC k j, bdMat_apply, bdMat_apply]
  by_cases hwin : (r * n ≤ k.val ∧ k.val < r * n + r) ∧ (c * n ≤ j.val ∧ j.val < c * n + c)
  · have hk : k.val / r = n := (div_eq_iff_window hr _ _).2 hwin.1
    have hj : j.val / c = n := (div_eq_iff_window hc _ _).2 hwin.2
    rw [dif_pos hwin, if_pos ⟨hk.trans hj.symm, by omega⟩]
    have ek := Nat.div_add_mod k.val r
    have ej := Nat.div_add_mod j.val c
    rw [hk] at ek
    rw [hj] at ej
    congr 1
    funext a
    apply Fin.ext
    match a with
    | ⟨0, _⟩ => show k.val - r * n = k.val % r; omega
    | ⟨1, _⟩ => show j.val - c * n = j.val % c; omega
  · rw [dif_neg hwin]
    by_cases hA : k.val / r = j.val / c ∧ k.val / r < n
    · rw [if_pos hA, if_pos ⟨hA.1, by omega⟩]
    · rw [if_neg hA, if_neg]
      rintro ⟨e, hlt⟩
      have hk : k.val / r = n := by
        by_contra hne
        exact hA ⟨e, by omega⟩
      exact hwin ⟨(div_eq_iff_window hr _ _).1 hk, (div_eq_iff_window hc _ _).1 (e.symm.trans hk)⟩

/-- Once all G blocks of a matrix [G r, G c] are written, the bound on the block number is vacuous. -/
theorem bdMat_full (hr : 0 < r) (hc : 0 < c) (G : ℕ) (hR : R ≤ r * G) (W : (⟨2, ![r, c]⟩ : Shape).Idx → α) (k : Fin R) (j : Fin C) :
    bdMat hr hc G W (ix2 k j) = if k.val / r = j.val / c then
      W (ix2 (⟨k.val % r, Nat.mod_lt _ hr⟩ : Fin r) (⟨j.val % c, Nat.mod_lt _ hc⟩ : Fin c)) else 0 := by
  rw [bdMat_apply]
  have hlt : k.val / r < G := by
    rw [Nat.div_lt_iff_lt_mul hr, Nat.mul_comm]
    exact lt_of_lt_of_le k.isLt hR
  by_cases h : k.val / r = j.val / c
  · rw [if_pos ⟨h, hlt⟩, if_pos h]
  · rw [if_neg (fun hh => h hh.1), if_neg h]

end Cert.Lib.BlockDiagScatter
-- ==== Proof.KernelHost.lean ====
/-
  WHAT THE HOST PREPARES FOR THE KERNEL: THE TWO BLOCK-DIAGONAL MATRICES.

  Before the kernel runs, the program builds a 126 × 224 matrix by writing W1 (9 × 16) into a zero matrix at the fourteen
  positions (9 g, 16 g), g = 0 … 13, and a 224 × 56 matrix by writing W2 (16 × 4) at the positions (16 g, 4 g). Each is
  the block-diagonal matrix of LibBlockDiagScatter with all fourteen blocks written: entry (k, j) is W (k mod r, j mod c)
  when k / r = j / c and 0 otherwise.
-/
import proofs.«163774_j12446815223911_1_alg».proof.Proof.Gen.KernelIdeal.Frame
import proofs.«163774_j12446815223911_1_alg».proof.Proof.LibBlockDiagScatter
import Idealize.ShloMosaic.Lib.StableHlo.Run
import Idealize.ShloMosaic.Lib.ValueIdx
import Idealize.ShloMosaic.PureOps.Ideal.Laws

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.Lib.BlockDiagScatter

variable (m : (ℓ : Loc nD τ sig) → Buf (Elt Ideal) ℓ)

/-- Two words side by side: the start position of one write, as a plain function of the two one-word vectors. -/
def pair2 (a b : S1.Idx → BitVec 32) : IVec S2 32 := concatenate S2 0 [⟨S1, a⟩, ⟨S1, b⟩] concatenates_S1_S1_S2_d0

theorem pair_eq (a b : S1.Idx → BitVec 32) : concatenate S2 0 [⟨S1, a⟩, ⟨S1, b⟩] concatenates_S1_S1_S2_d0 = pair2 a b := rfl

/-- The start position (a, b). -/
abbrev idxAt (a b : BitVec 32) : IVec S2 32 :=
  pair2 (broadcastInDim S1 ![] bcast_S_S1 (constantI S_ 32 a)) (broadcastInDim S1 ![] bcast_S_S1 (constantI S_ 32 b))

theorem h9 : 0 < 9 := by norm_num
theorem h16 : 0 < 16 := by norm_num
theorem h4 : 0 < 4 := by norm_num

/-- The zero matrix is the block-diagonal matrix with no block written (first matrix). -/
theorem zeros1 (W : S9x16.Idx → EReal) :
    (broadcastInDim S126x224 ![] bcast_S_S126x224 (constant (F := Ideal) S_ .f32 0x00000000#32) : S126x224.Idx → EReal)
      = bdMat (α := EReal) h9 h16 0 W := by
  rw [bdMat_zero]
  funext y
  show Ideal.ofBits .f32 0x00000000#32 = 0
  exact Ideal.ofBits_zero_f32

/-- The zero matrix is the block-diagonal matrix with no block written (second matrix). -/
theorem zeros2 (W : S16x4.Idx → EReal) :
    (broadcastInDim S224x56 ![] bcast_S_S224x56 (constant (F := Ideal) S_ .f32 0x00000000#32) : S224x56.Idx → EReal)
      = bdMat (α := EReal) h16 h4 0 W := by
  rw [bdMat_zero]
  funext y
  show Ideal.ofBits .f32 0x00000000#32 = 0
  exact Ideal.ofBits_zero_f32

set_option maxHeartbeats 8000000 in
/-- The 126 × 224 operand as the kernel finds it: W1 in all fourteen diagonal blocks. -/
theorem wbd1_eq (c : Dev nD) : (V m c main_v56 : S126x224.Idx → EReal)
    = bdMat (α := EReal) h9 h16 14 (m ((c : Thread nD τ).loc main_arg2) : S9x16.Idx → EReal) := by
  dsimp only [V, hostOps0]
  simp (disch := decide) only [after_cons, after_nil, nullary_result', unary_result', binary_result', ternary_result',
    reshape_result', nullary_result_ne', unary_result_ne', binary_result_ne', ternary_result_ne', reshape_result_ne', pair_eq]
  rw [zeros1 (m ((c : Thread nD τ).loc main_arg2) : S9x16.Idx → EReal)]
  rw [
    bdMat_step h9 h16 scatter_S126x224_S2_S9x16_01_n_01_0 rfl rfl rfl rfl (idxAt 0#32 0#32) 0 (by decide) (by decide) (by norm_num) (by norm_num),
    bdMat_step h9 h16 scatter_S126x224_S2_S9x16_01_n_01_0 rfl rfl rfl rfl (idxAt 9#32 16#32) 1 (by decide) (by decide) (by norm_num) (by norm_num),
    bdMat_step h9 h16 scatter_S126x224_S2_S9x16_01_n_01_0 rfl rfl rfl rfl (idxAt 18#32 32#32) 2 (by decide) (by decide) (by norm_num) (by norm_num),
    bdMat_step h9 h16 scatter_S126x224_S2_S9x16_01_n_01_0 rfl rfl rfl rfl (idxAt 27#32 48#32) 3 (by decide) (by decide) (by norm_num) (by norm_num),
    bdMat_step h9 h16 scatter_S126x224_S2_S9x16_01_n_01_0 rfl rfl rfl rfl (idxAt 36#32 64#32) 4 (by decide) (by decide) (by norm_num) (by norm_num),
    bdMat_step h9 h16 scatter_S126x224_S2_S9x16_01_n_01_0 rfl rfl rfl rfl (idxAt 45#32 80#32) 5 (by decide) (by decide) (by norm_num) (by norm_num),
    bdMat_step h9 h16 scatter_S126x224_S2_S9x16_01_n_01_0 rfl rfl rfl rfl (idxAt 54#32 96#32) 6 (by decide) (by decide) (by norm_num) (by norm_num),
    bdMat_step h9 h16 scatter_S126x224_S2_S9x16_01_n_01_0 rfl rfl rfl rfl (idxAt 63#32 112#32) 7 (by decide) (by decide) (by norm_num) (by norm_num),
    bdMat_step h9 h16 scatter_S126x224_S2_S9x16_01_n_01_0 rfl rfl rfl rfl (idxAt 72#32 128#32) 8 (by decide) (by decide) (by norm_num) (by norm_num),
    bdMat_step h9 h16 scatter_S126x224_S2_S9x16_01_n_01_0 rfl rfl rfl rfl (idxAt 81#32 144#32) 9 (by decide) (by decide) (by norm_num) (by norm_num),
    bdMat_step h9 h16 scatter_S126x224_S2_S9x16_01_n_01_0 rfl rfl rfl rfl (idxAt 90#32 160#32) 10 (by decide) (by decide) (by norm_num) (by norm_num),
    bdMat_step h9 h16 scatter_S126x224_S2_S9x16_01_n_01_0 rfl rfl rfl rfl (idxAt 99#32 176#32) 11 (by decide) (by decide) (by norm_num) (by norm_num),
    bdMat_step h9 h16 scatter_S126x224_S2_S9x16_01_n_01_0 rfl rfl rfl rfl (idxAt 108#32 192#32) 12 (by decide) (by decide) (by norm_num) (by norm_num),
    bdMat_step h9 h16 scatter_S126x224_S2_S9x16_01_n_01_0 rfl rfl rfl rfl (idxAt 117#32 208#32) 13 (by decide) (by decide) (by norm_num) (by norm_num)]

set_option maxHeartbeats 8000000 in
/-- The 224 × 56 operand as the kernel finds it: W2 in all fourteen diagonal blocks. -/
theorem wbd2_eq (c : Dev nD) : (V m c main_v113 : S224x56.Idx → EReal)
    = bdMat (α := EReal) h16 h4 14 (m ((c : Thread nD τ).loc main_arg4) : S16x4.Idx → EReal) := by
  dsimp only [V, hostOps0]
  simp (disch := decide) only [after_cons, after_nil, nullary_result', unary_result', binary_result', ternary_result',
    reshape_result', nullary_result_ne', unary_result_ne', binary_result_ne', ternary_result_ne', reshape_result_ne', pair_eq]
  rw [zeros2 (m ((c : Thread nD τ).loc main_arg4) : S16x4.Idx → EReal)]
  rw [
    bdMat_step h16 h4 scatter_S224x56_S2_S16x4_01_n_01_0 rfl rfl rfl rfl (idxAt 0#32 0#32) 0 (by decide) (by decide) (by norm_num) (by norm_num),
    bdMat_step h16 h4 scatter_S224x56_S2_S16x4_01_n_01_0 rfl rfl rfl rfl (idxAt 16#32 4#32) 1 (by decide) (by decide) (by norm_num) (by norm_num),
    bdMat_step h16 h4 scatter_S224x56_S2_S16x4_01_n_01_0 rfl rfl rfl rfl (idxAt 32#32 8#32) 2 (by decide) (by decide) (by norm_num) (by norm_num),
    bdMat_step h16 h4 scatter_S224x56_S2_S16x4_01_n_01_0 rfl rfl rfl rfl (idxAt 48#32 12#32) 3 (by decide) (by decide) (by norm_num) (by norm_num),
    bdMat_step h16 h4 scatter_S224x56_S2_S16x4_01_n_01_0 rfl rfl rfl rfl (idxAt 64#32 16#32) 4 (by decide) (by decide) (by norm_num) (by norm_num),
    bdMat_step h16 h4 scatter_S224x56_S2_S16x4_01_n_01_0 rfl rfl rfl rfl (idxAt 80#32 20#32) 5 (by decide) (by decide) (by norm_num) (by norm_num),
    bdMat_step h16 h4 scatter_S224x56_S2_S16x4_01_n_01_0 rfl rfl rfl rfl (idxAt 96#32 24#32) 6 (by decide) (by decide) (by norm_num) (by norm_num),
    bdMat_step h16 h4 scatter_S224x56_S2_S16x4_01_n_01_0 rfl rfl rfl rfl (idxAt 112#32 28#32) 7 (by decide) (by decide) (by norm_num) (by norm_num),
    bdMat_step h16 h4 scatter_S224x56_S2_S16x4_01_n_01_0 rfl rfl rfl rfl (idxAt 128#32 32#32) 8 (by decide) (by decide) (by norm_num) (by norm_num),
    bdMat_step h16 h4 scatter_S224x56_S2_S16x4_01_n_01_0 rfl rfl rfl rfl (idxAt 144#32 36#32) 9 (by decide) (by decide) (by norm_num) (by norm_num),
    bdMat_step h16 h4 scatter_S224x56_S2_S16x4_01_n_01_0 rfl rfl rfl rfl (idxAt 160#32 40#32) 10 (by decide) (by decide) (by norm_num) (by norm_num),
    bdMat_step h16 h4 scatter_S224x56_S2_S16x4_01_n_01_0 rfl rfl rfl rfl (idxAt 176#32 44#32) 11 (by decide) (by decide) (by norm_num) (by norm_num),
    bdMat_step h16 h4 scatter_S224x56_S2_S16x4_01_n_01_0 rfl rfl rfl rfl (idxAt 192#32 48#32) 12 (by decide) (by decide) (by norm_num) (by norm_num),
    bdMat_step h16 h4 scatter_S224x56_S2_S16x4_01_n_01_0 rfl rfl rfl rfl (idxAt 208#32 52#32) 13 (by decide) (by decide) (by norm_num) (by norm_num)]

end Cert.KernelIdeal.Host

end
-- ==== Proof.LibTileRow.lean ====
/-
  A ROW REPEATED G TIMES AND LAID OUT AS ONE LONG ROW, READ AT A COLUMN (general lemmas; they mention no program).

  A vector b of length n is placed as a 1 × n matrix, repeated down G rows, flattened to a vector of length N = G n and
  placed as a 1 × N matrix: column j of the result is b (j mod n). And a vector placed as a 1 × n matrix has b j at column j.
-/
import Idealize.ShloMosaic.Lib.Pipeline.Value
import Idealize.ShloMosaic.Lib.ValueIdx

namespace Cert.Lib.TileRow

open Idealize.ShloMosaic Idealize.ShloMosaic.ValueIdx

variable {α : Type}

/-- A vector placed as a one-row matrix: column j holds entry j. -/
theorem row_apply {n : ℕ} (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) := by
  -- both indices sit at row-major position j: 0 * n + j on the matrix side, j on the vector side
  refine shapeCast_apply b h _ _ ?_
  rw [Shape.rowMajor_val_two, Shape.rowMajor_val_one]
  show j.val = 0 * n + j.val
  rw [Nat.zero_mul, Nat.zero_add]

/-- A vector repeated G times and laid out as one row of length N = G n: column j holds entry j mod n. -/
theorem tile_row_apply {G n N : ℕ} (hn : 0 < n) (b : (⟨1, ![n]⟩ : Shape).Idx → α)
    (h1 : (⟨1, ![n]⟩ : Shape).ShapeCasts ⟨2, ![1, n]⟩) (h2 : (⟨2, ![1, n]⟩ : Shape).BroadcastsInDim ⟨2, ![G, n]⟩ ![0, 1])
    (h3 : (⟨2, ![G, n]⟩ : Shape).ShapeCasts ⟨1, ![N]⟩) (h4 : (⟨1, ![N]⟩ : Shape).ShapeCasts ⟨2, ![1, N]⟩) (j : Fin N) :
    shapeCast ⟨2, ![1, N]⟩ (shapeCast ⟨1, ![N]⟩ (broadcastInDim ⟨2, ![G, n]⟩ ![0, 1] h2 (shapeCast ⟨2, ![1, n]⟩ b h1)) h3) h4
        (ix2 (0 : Fin 1) j)
      = b (ix1 (⟨j.val % n, Nat.mod_lt _ hn⟩ : Fin n)) := by
  -- the flattening keeps the number of elements: N = G * n, hence j / n < G
  have hN : N = G * n := by
    have h : (⟨1, ![N]⟩ : Shape).numel = (⟨2, ![G, n]⟩ : Shape).numel := h3
    simpa [Shape.numel, Fin.prod_univ_succ] using h
  have hq : j.val / n < G := by
    apply Nat.div_lt_of_lt_mul
    calc j.val < N := j.isLt
      _ = n * G := by rw [hN, Nat.mul_comm]
  -- the outer cast reads the long vector at j
  rw [row_apply _ h4 j]
  -- position j of the flattened G × n matrix is its entry (j / n, j % n), since (j / n) * n + j % n = j
  rw [shapeCast_apply _ h3 (ix1 j) (ix2 (⟨j.val / n, hq⟩ : Fin G) (⟨j.val % n, Nat.mod_lt _ hn⟩ : Fin n)) (by
    rw [Shape.rowMajor_val_two, Shape.rowMajor_val_one]
    show j.val / n * n + j.val % n = j.val
    exact Nat.div_add_mod' _ _)]
  -- every row of the repeated matrix is the one row: entry (j / n, j % n) is entry (0, j % n) of the 1 × n matrix
  rw [broadcastInDim_apply ![0, 1] h2 _ (ix2 (⟨j.val / n, hq⟩ : Fin G) (⟨j.val % n, Nat.mod_lt _ hn⟩ : Fin n))
    (ix2 (0 : Fin 1) (⟨j.val % n, Nat.mod_lt _ hn⟩ : Fin n)) (by
    intro a
    fin_cases a
    · show (0 : ℕ) = if (1 : ℕ) = 1 then 0 else _
      simp
    · show j.val % n = if n = 1 then 0 else j.val % n
      split_ifs with h1n
      · have := Nat.mod_lt j.val hn; omega
      · rfl)]
  -- and the one-row matrix holds b (j % n) there
  exact row_apply b h1 _

end Cert.Lib.TileRow
-- ==== Proof.KernelHostBias.lean ====
/-
  WHAT THE HOST PREPARES FOR THE KERNEL: THE FOUR BIAS ROWS.

  Before the kernel runs, the program lays b1 (length 16) out fourteen times in one row of length 224, b2 (length 4)
  fourteen times in one row of length 56, and places b3 and b4 as one-row matrices. Column j of the first is b1 (j mod 16),
  of the second b2 (j mod 4); column n of the third is b3 n and column a of the fourth b4 a (LibTileRow).
-/
import proofs.«163774_j12446815223911_1_alg».proof.Proof.Gen.KernelIdeal.Frame
import proofs.«163774_j12446815223911_1_alg».proof.Proof.LibTileRow
import Idealize.ShloMosaic.Lib.StableHlo.Run
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.Lib.TileRow

variable (m : (ℓ : Loc nD τ sig) → Buf (Elt Ideal) ℓ)

set_option maxHeartbeats 8000000 in
/-- The first bias row as the kernel finds it: b1 repeated fourteen times. -/
theorem b1t_apply (c : Dev nD) (j : Fin 224) :
    (V m c main_v117 : S1x224.Idx → EReal) (ix2 (0 : Fin 1) j)
      = (m ((c : Thread nD τ).loc main_arg3) : S16.Idx → EReal) (ix1 (⟨j.val % 16, Nat.mod_lt _ (by norm_num)⟩ : Fin 16)) := by
  -- the operand is b1 as a 1 × 16 matrix, repeated down 14 rows, flattened to length 224, placed as a 1 × 224 matrix
  have e : (V m c main_v117 : S1x224.Idx → EReal)
      = shapeCast S1x224 (shapeCast S224 (broadcastInDim S14x16 ![0, 1] bcast_S1x16_S14x16_0_1
          (shapeCast S1x16 (m ((c : Thread nD τ).loc main_arg3) : S16.Idx → EReal) shapeCasts_S16_S1x16))
          shapeCasts_S14x16_S224) shapeCasts_S224_S1x224 := by
    dsimp only [V, hostOps0]
    after_results_simp <;> rfl
  rw [e]
  exact tile_row_apply (by norm_num) _ _ _ _ _ j

set_option maxHeartbeats 8000000 in
/-- The second bias row as the kernel finds it: b2 repeated fourteen times. -/
theorem b2t_apply (c : Dev nD) (j : Fin 56) :
    (V m c main_v121 : S1x56.Idx → EReal) (ix2 (0 : Fin 1) j)
      = (m ((c : Thread nD τ).loc main_arg5) : S4.Idx → EReal) (ix1 (⟨j.val % 4, Nat.mod_lt _ (by norm_num)⟩ : Fin 4)) := by
  -- the operand is b2 as a 1 × 4 matrix, repeated down 14 rows, flattened to length 56, placed as a 1 × 56 matrix
  have e : (V m c main_v121 : S1x56.Idx → EReal)
      = shapeCast S1x56 (shapeCast S56 (broadcastInDim S14x4 ![0, 1] bcast_S1x4_S14x4_0_1
          (shapeCast S1x4 (m ((c : Thread nD τ).loc main_arg5) : S4.Idx → EReal) shapeCasts_S4_S1x4))
          shapeCasts_S14x4_S56) shapeCasts_S56_S1x56 := by
    dsimp only [V, hostOps0]
    after_results_simp <;> rfl
  rw [e]
  exact tile_row_apply (by norm_num) _ _ _ _ _ j

set_option maxHeartbeats 8000000 in
/-- The third bias row as the kernel finds it: b3 as a one-row matrix. -/
theorem b3r_apply (c : Dev nD) (n : Fin 128) :
    (V m c main_v122 : S1x128.Idx → EReal) (ix2 (0 : Fin 1) n) = (m ((c : Thread nD τ).loc main_arg7) : S128.Idx → EReal) (ix1 n) := by
  -- the operand is b3 placed as a 1 × 128 matrix
  have e : (V m c main_v122 : S1x128.Idx → EReal)
      = shapeCast S1x128 (m ((c : Thread nD τ).loc main_arg7) : S128.Idx → EReal) shapeCasts_S128_S1x128 := by
    dsimp only [V, hostOps0]
    after_results_simp <;> rfl
  rw [e]
  exact row_apply _ _ n

set_option maxHeartbeats 8000000 in
/-- The fourth bias row as the kernel finds it: b4 as a one-row matrix. -/
theorem b4r_apply (c : Dev nD) (a : Fin 30) :
    (V m c main_v123 : S1x30.Idx → EReal) (ix2 (0 : Fin 1) a) = (m ((c : Thread nD τ).loc main_arg9) : S30.Idx → EReal) (ix1 a) := by
  -- the operand is b4 placed as a 1 × 30 matrix
  have e : (V m c main_v123 : S1x30.Idx → EReal)
      = shapeCast S1x30 (m ((c : Thread nD τ).loc main_arg9) : S30.Idx → EReal) shapeCasts_S30_S1x30 := by
    dsimp only [V, hostOps0]
    after_results_simp <;> rfl
  rw [e]
  exact row_apply _ _ a

end Cert.KernelIdeal.Host

end
-- ==== Proof.KernelCover.lean ====
/-
  THE OUTPUT BLOCKS TILE THE OUTPUT ARRAYS.

  The grid has 64 points. At point t the two row-blocked inputs and the two outputs are at row block t (rows 4096 t …
  4096 t + 4095, all columns), and the eight weight operands are whole arrays at block (0, 0). Every row i of an output
  array [262144, 15] therefore lies in the block of exactly one point, t = i / 4096, and every point writes its block back.
-/
import proofs.«163774_j12446815223911_1_alg».proof.Proof.Gen.KernelIdeal.Value

noncomputable section

namespace Cert.KernelIdeal.Cover

open Cert.KernelIdeal Cert.KernelIdeal.Gen Idealize.ShloMosaic Idealize.ShloMosaic.TcCoe Idealize.SL.Sem

/-- The printed index maps over the grid: the blocked operands are at row block t, the whole operands at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- An entry of the first output array is in point t's block iff each coordinate is in the block's range on its axis. -/
theorem mem_blk10 (t : Fin cfg0.N) (i : S262144x15.Idx) :
    i ∈ ((cfg0.win 10).blk t).view.set ↔ ∀ a : Fin 2, win0_10.index t a * S4096x15.size a ≤ (i a).val ∧ (i a).val < win0_10.index t a * S4096x15.size a + S4096x15.size a := by
  show i ∈ ((View.whole main_v124_0).slice (win0_10.rect t)).set ↔ _
  rw [View.set_slice_whole, Rect.mem_set_unit]
  exact Iff.rfl

/-- An entry of the second output array is in point t's block iff each coordinate is in the block's range on its axis. -/
theorem mem_blk11 (t : Fin cfg0.N) (i : S262144x15.Idx) :
    i ∈ ((cfg0.win 11).blk t).view.set ↔ ∀ a : Fin 2, win0_11.index t a * S4096x15.size a ≤ (i a).val ∧ (i a).val < win0_11.index t a * S4096x15.size a + S4096x15.size a := by
  show i ∈ ((View.whole main_v124_1).slice (win0_11.rect t)).set ↔ _
  rw [View.set_slice_whole, Rect.mem_set_unit]
  exact Iff.rfl

/-- Row r of an output array belongs to the grid point r / 4096, one of the 64. -/
theorem point_of_row (r : Nat) (hr : r < 262144) : ∃ t : Fin cfg0.N, t.val = r / 4096 :=
  ⟨⟨r / 4096, by show r / 4096 < grid0.N; rw [N_0]; omega⟩, rfl⟩

/-- Every entry of the first output array lies in the block some point writes back. -/
theorem cover10 : ∀ i : S262144x15.Idx, ∃ t : Fin cfg0.N, (cfg0.win 10).flush t = true ∧ i ∈ ((cfg0.win 10).blk t).view.set := by
  intro i
  have hi0 : (i 0).val < 262144 := (i 0).isLt
  have hi1 : (i 1).val < 15 := (i 1).isLt
  obtain ⟨t, ht⟩ := point_of_row (i 0).val hi0
  obtain ⟨-, -, -, -, -, -, -, -, -, -, e10, e11⟩ := idx_facts t
  obtain ⟨q0, q1⟩ := e10
  refine ⟨t, flush0_10 t, ?_⟩
  rw [mem_blk10]
  intro a
  match a with
  | ⟨0, _⟩ => show win0_10.index t (0 : Fin 2) * 4096 ≤ (i 0).val ∧ (i 0).val < win0_10.index t (0 : Fin 2) * 4096 + 4096; omega
  | ⟨1, _⟩ => show win0_10.index t (1 : Fin 2) * 15 ≤ (i 1).val ∧ (i 1).val < win0_10.index t (1 : Fin 2) * 15 + 15; omega

/-- Every entry of the second output array lies in the block some point writes back. -/
theorem cover11 : ∀ i : S262144x15.Idx, ∃ t : Fin cfg0.N, (cfg0.win 11).flush t = true ∧ i ∈ ((cfg0.win 11).blk t).view.set := by
  intro i
  have hi0 : (i 0).val < 262144 := (i 0).isLt
  have hi1 : (i 1).val < 15 := (i 1).isLt
  obtain ⟨t, ht⟩ := point_of_row (i 0).val hi0
  obtain ⟨-, -, -, -, -, -, -, -, -, -, e10, e11⟩ := idx_facts t
  obtain ⟨q0, q1⟩ := e11
  refine ⟨t, flush0_11 t, ?_⟩
  rw [mem_blk11]
  intro a
  match a with
  | ⟨0, _⟩ => show win0_11.index t (0 : Fin 2) * 4096 ≤ (i 0).val ∧ (i 0).val < win0_11.index t (0 : Fin 2) * 4096 + 4096; omega
  | ⟨1, _⟩ => show win0_11.index t (1 : Fin 2) * 15 ≤ (i 1).val ∧ (i 1).val < win0_11.index t (1 : Fin 2) * 15 + 15; omega

end Cert.KernelIdeal.Cover

end
-- ==== Proof.KernelBlocks.lean ====
/-
  WHAT EACH OPERAND'S BLOCK HOLDS AT A GRID POINT, IN COORDINATES.

  At point t the feature block is rows 4096 t … 4096 t + 4095 of the feature array (all 126 columns), the extra-column
  block the same rows of the [262144, 1] array, and each of the eight weight operands is its whole array. An output
  block's entry (p, q) is the output array's entry (4096 t + p, q).
-/
import proofs.«163774_j12446815223911_1_alg».proof.Proof.Gen.KernelIdeal.Value
import proofs.«163774_j12446815223911_1_alg».proof.Proof.KernelCover
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

theorem row_lt (t : Fin cfg0.N) (p : Fin 4096) : t.val * 4096 + p.val < 262144 := by
  have h : t.val < 64 := lt_of_lt_of_eq t.isLt (show cfg0.N = 64 from N_0)
  have := p.isLt
  omega

/-- The feature block: row p of block t is row 4096 t + p of the feature array. -/
theorem iblk0_apply (c : Dev nD) (t : Fin cfg0.N) (p : Fin 4096) (k : Fin 126) :
    (iblk m c 0 t : S4096x126.Idx → Elt F .f32) (ix2 p k)
      = (V m c main_arg0 : S262144x126.Idx → Elt F .f32) (ix2 (⟨t.val * 4096 + p.val, row_lt t p⟩ : Fin 262144) k) := by
  obtain ⟨e0, e1, e2, e3, e4, e5, e6, e7, e8, e9, e10, e11⟩ := Cover.idx_facts t
  obtain ⟨q0, q1⟩ := e0
  show V m c main_arg0 (((cfg0.win 0).blk t).view.emb (ix2 p k)) = _
  refine congrArg (V m c main_arg0 : S262144x126.Idx → Elt F .f32) ?_
  funext a; apply Fin.ext
  match a with
  | ⟨0, _⟩ => show win0_0.index t (0 : Fin 2) * 4096 + 1 * p.val = t.val * 4096 + p.val; omega
  | ⟨1, _⟩ => show win0_0.index t (1 : Fin 2) * 126 + 1 * k.val = k.val; omega

/-- The extra-column block: row p of block t is row 4096 t + p of the extra column. -/
theorem iblk1_apply (c : Dev nD) (t : Fin cfg0.N) (p : Fin 4096) :
    (iblk m c 1 t : S4096x1.Idx → Elt F .f32) (ix2 p (0 : Fin 1))
      = (V m c main_arg1 : S262144x1.Idx → Elt F .f32) (ix2 (⟨t.val * 4096 + p.val, row_lt t p⟩ : Fin 262144) (0 : Fin 1)) := by
  obtain ⟨e0, e1, e2, e3, e4, e5, e6, e7, e8, e9, e10, e11⟩ := Cover.idx_facts t
  obtain ⟨q0, q1⟩ := e1
  show V m c main_arg1 (((cfg0.win 1).blk t).view.emb (ix2 p (0 : Fin 1))) = _
  refine congrArg (V m c main_arg1 : S262144x1.Idx → Elt F .f32) ?_
  funext a; apply Fin.ext
  match a with
  | ⟨0, _⟩ => show win0_1.index t (0 : Fin 2) * 4096 + 1 * p.val = t.val * 4096 + p.val; omega
  | ⟨1, _⟩ => show win0_1.index t (1 : Fin 2) * 1 + 1 * 0 = 0; omega

/-- The eight weight operands are whole arrays at every point. -/
theorem iblk2_eq (c : Dev nD) (t : Fin cfg0.N) : (iblk m c 2 t : S126x224.Idx → Elt F .f32) = V m c main_v56 := by
  obtain ⟨e0, e1, e2, e3, e4, e5, e6, e7, e8, e9, e10, e11⟩ := Cover.idx_facts t
  obtain ⟨q0, q1⟩ := e2
  funext j
  show V m c main_v56 (((cfg0.win 2).blk t).view.emb j) = V m c main_v56 j
  refine congrArg (V m c main_v56 : S126x224.Idx → Elt F .f32) ?_
  funext a; apply Fin.ext
  match a with
  | ⟨0, _⟩ => show win0_2.index t (0 : Fin 2) * 126 + 1 * (j 0).val = (j 0).val; omega
  | ⟨1, _⟩ => show win0_2.index t (1 : Fin 2) * 224 + 1 * (j 1).val = (j 1).val; omega
theorem iblk3_eq (c : Dev nD) (t : Fin cfg0.N) : (iblk m c 3 t : S1x224.Idx → Elt F .f32) = V m c main_v117 := by
  obtain ⟨e0, e1, e2, e3, e4, e5, e6, e7, e8, e9, e10, e11⟩ := Cover.idx_facts t
  obtain ⟨q0, q1⟩ := e3
  funext j
  show V m c main_v117 (((cfg0.win 3).blk t).view.emb j) = V m c main_v117 j
  refine congrArg (V m c main_v117 : S1x224.Idx → Elt F .f32) ?_
  funext a; apply Fin.ext
  match a with
  | ⟨0, _⟩ => show win0_3.index t (0 : Fin 2) * 1 + 1 * (j 0).val = (j 0).val; omega
  | ⟨1, _⟩ => show win0_3.index t (1 : Fin 2) * 224 + 1 * (j 1).val = (j 1).val; omega
theorem iblk4_eq (c : Dev nD) (t : Fin cfg0.N) : (iblk m c 4 t : S224x56.Idx → Elt F .f32) = V m c main_v113 := by
  obtain ⟨e0, e1, e2, e3, e4, e5, e6, e7, e8, e9, e10, e11⟩ := Cover.idx_facts t
  obtain ⟨q0, q1⟩ := e4
  funext j
  show V m c main_v113 (((cfg0.win 4).blk t).view.emb j) = V m c main_v113 j
  refine congrArg (V m c main_v113 : S224x56.Idx → Elt F .f32) ?_
  funext a; apply Fin.ext
  match a with
  | ⟨0, _⟩ => show win0_4.index t (0 : Fin 2) * 224 + 1 * (j 0).val = (j 0).val; omega
  | ⟨1, _⟩ => show win0_4.index t (1 : Fin 2) * 56 + 1 * (j 1).val = (j 1).val; omega
theorem iblk5_eq (c : Dev nD) (t : Fin cfg0.N) : (iblk m c 5 t : S1x56.Idx → Elt F .f32) = V m c main_v121 := by
  obtain ⟨e0, e1, e2, e3, e4, e5, e6, e7, e8, e9, e10, e11⟩ := Cover.idx_facts t
  obtain ⟨q0, q1⟩ := e5
  funext j
  show V m c main_v121 (((cfg0.win 5).blk t).view.emb j) = V m c main_v121 j
  refine congrArg (V m c main_v121 : S1x56.Idx → Elt F .f32) ?_
  funext a; apply Fin.ext
  match a with
  | ⟨0, _⟩ => show win0_5.index t (0 : Fin 2) * 1 + 1 * (j 0).val = (j 0).val; omega
  | ⟨1, _⟩ => show win0_5.index t (1 : Fin 2) * 56 + 1 * (j 1).val = (j 1).val; omega
theorem iblk6_eq (c : Dev nD) (t : Fin cfg0.N) : (iblk m c 6 t : S57x128.Idx → Elt F .f32) = V m c main_arg6 := by
  obtain ⟨e0, e1, e2, e3, e4, e5, e6, e7, e8, e9, e10, e11⟩ := Cover.idx_facts t
  obtain ⟨q0, q1⟩ := e6
  funext j
  show V m c main_arg6 (((cfg0.win 6).blk t).view.emb j) = V m c main_arg6 j
  refine congrArg (V m c main_arg6 : S57x128.Idx → Elt F .f32) ?_
  funext a; apply Fin.ext
  match a with
  | ⟨0, _⟩ => show win0_6.index t (0 : Fin 2) * 57 + 1 * (j 0).val = (j 0).val; omega
  | ⟨1, _⟩ => show win0_6.index t (1 : Fin 2) * 128 + 1 * (j 1).val = (j 1).val; omega
theorem iblk7_eq (c : Dev nD) (t : Fin cfg0.N) : (iblk m c 7 t : S1x128.Idx → Elt F .f32) = V m c main_v122 := by
  obtain ⟨e0, e1, e2, e3, e4, e5, e6, e7, e8, e9, e10, e11⟩ := Cover.idx_facts t
  obtain ⟨q0, q1⟩ := e7
  funext j
  show V m c main_v122 (((cfg0.win 7).blk t).view.emb j) = V m c main_v122 j
  refine congrArg (V m c main_v122 : S1x128.Idx → Elt F .f32) ?_
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega
theorem iblk8_eq (c : Dev nD) (t : Fin cfg0.N) : (iblk m c 8 t : S128x30.Idx → Elt F .f32) = V m c main_arg8 := by
  obtain ⟨e0, e1, e2, e3, e4, e5, e6, e7, e8, e9, e10, e11⟩ := Cover.idx_facts t
  obtain ⟨q0, q1⟩ := e8
  funext j
  show V m c main_arg8 (((cfg0.win 8).blk t).view.emb j) = V m c main_arg8 j
  refine congrArg (V m c main_arg8 : S128x30.Idx → Elt F .f32) ?_
  funext a; apply Fin.ext
  match a with
  | ⟨0, _⟩ => show win0_8.index t (0 : Fin 2) * 128 + 1 * (j 0).val = (j 0).val; omega
  | ⟨1, _⟩ => show win0_8.index t (1 : Fin 2) * 30 + 1 * (j 1).val = (j 1).val; omega
theorem iblk9_eq (c : Dev nD) (t : Fin cfg0.N) : (iblk m c 9 t : S1x30.Idx → Elt F .f32) = V m c main_v123 := by
  obtain ⟨e0, e1, e2, e3, e4, e5, e6, e7, e8, e9, e10, e11⟩ := Cover.idx_facts t
  obtain ⟨q0, q1⟩ := e9
  funext j
  show V m c main_v123 (((cfg0.win 9).blk t).view.emb j) = V m c main_v123 j
  refine congrArg (V m c main_v123 : S1x30.Idx → Elt F .f32) ?_
  funext a; apply Fin.ext
  match a with
  | ⟨0, _⟩ => show win0_9.index t (0 : Fin 2) * 1 + 1 * (j 0).val = (j 0).val; omega
  | ⟨1, _⟩ => show win0_9.index t (1 : Fin 2) * 30 + 1 * (j 1).val = (j 1).val; omega

/-- An output block's entry (p, q) sits at (4096 t + p, q) of the first output array … -/
theorem emb10 (t : Fin cfg0.N) (j : S4096x15.Idx) :
    (((cfg0.win 10).blk t).view.emb j : S262144x15.Idx)
      = ix2 (⟨t.val * 4096 + (j 0).val, row_lt t ⟨(j 0).val, idx2_lt0 j⟩⟩ : Fin 262144) (⟨(j 1).val, idx2_lt1 j⟩ : Fin 15) := by
  obtain ⟨e0, e1, e2, e3, e4, e5, e6, e7, e8, e9, e10, e11⟩ := Cover.idx_facts t
  obtain ⟨q0, q1⟩ := e10
  funext a; apply Fin.ext
  match a with
  | ⟨0, _⟩ => show win0_10.index t (0 : Fin 2) * 4096 + 1 * (j 0).val = t.val * 4096 + (j 0).val; omega
  | ⟨1, _⟩ => show win0_10.index t (1 : Fin 2) * 15 + 1 * (j 1).val = (j 1).val; omega

/-- … and of the second. -/
theorem emb11 (t : Fin cfg0.N) (j : S4096x15.Idx) :
    (((cfg0.win 11).blk t).view.emb j : S262144x15.Idx)
      = ix2 (⟨t.val * 4096 + (j 0).val, row_lt t ⟨(j 0).val, idx2_lt0 j⟩⟩ : Fin 262144) (⟨(j 1).val, idx2_lt1 j⟩ : Fin 15) := by
  obtain ⟨e0, e1, e2, e3, e4, e5, e6, e7, e8, e9, e10, e11⟩ := Cover.idx_facts t
  obtain ⟨q0, q1⟩ := e11
  funext a; apply Fin.ext
  match a with
  | ⟨0, _⟩ => show win0_11.index t (0 : Fin 2) * 4096 + 1 * (j 0).val = t.val * 4096 + (j 0).val; omega
  | ⟨1, _⟩ => show win0_11.index t (1 : Fin 2) * 15 + 1 * (j 1).val = (j 1).val; omega

end Cert.KernelIdeal.Blocks

end
-- ==== Proof.Spec.lean ====
/-
  THE NETWORK, ONE INPUT ROW AT A TIME, ON THE EXTENDED REALS.

  A row of 126 features is 14 groups of 9. Every group goes through the SAME two small layers: 9 → 16 (weights W1, bias
  b1, then max with 0) and 16 → 4 (weights W2, bias b2, then max with 0). The 14 × 4 group outputs, laid group after
  group, followed by the row's one extra scalar, are the 57 inputs of the third layer 57 → 128 (W3, b3, max with 0);
  the fourth layer 128 → 30 (W4, b4) gives 30 numbers, of which the first 15 go through tanh and the last 15 through exp.

  Both programs compute exactly this function of their arguments: one groups the row by a reshape and contracts each
  group with W1 (then W2), the other multiplies the whole row by a matrix that carries W1 (then W2) in 14 diagonal blocks
  and zeros elsewhere. The two agree because a product with 0 is 0 and a finite sum may be regrouped.
-/
import Idealize.ShloMosaic.PureOps.Ideal
import Idealize.ShloMosaic.Lib.ValueIdx

noncomputable section

open scoped BigOperators

namespace Cert.Spec

open Idealize.ShloMosaic Idealize.ShloMosaic.ValueIdx

/-- A matrix of r rows and c columns of extended reals. -/
abbrev Mat (r c : ℕ) : Type := (⟨2, ![r, c]⟩ : Shape).Idx → EReal
/-- A vector of n extended reals. -/
abbrev Row (n : ℕ) : Type := (⟨1, ![n]⟩ : Shape).Idx → EReal

/-- Group g's first layer: entry h of max (x_g · W1 + b1, 0), where x_g is features 9g … 9g + 8 of the row. -/
def hid (xr : Fin 126 → EReal) (W1 : Mat 9 16) (b1 : Row 16) (g : Fin 14) (h : Fin 16) : EReal :=
  max ((∑ i : Fin 9, xr ⟨9 * g.val + i.val, by have := g.isLt; have := i.isLt; omega⟩ * W1 (ix2 i h)) + b1 (ix1 h)) 0

/-- Group g's second layer: entry o of max (hid_g · W2 + b2, 0). -/
def grp (xr : Fin 126 → EReal) (W1 : Mat 9 16) (b1 : Row 16) (W2 : Mat 16 4) (b2 : Row 4) (g : Fin 14) (o : Fin 4) : EReal :=
  max ((∑ h : Fin 16, hid xr W1 b1 g h * W2 (ix2 h o)) + b2 (ix1 o)) 0

/-- The third layer's 57 inputs: the group outputs, group after group (entry 4g + o is group g's output o), then the
    row's extra scalar s. -/
def comb (xr : Fin 126 → EReal) (s : EReal) (W1 : Mat 9 16) (b1 : Row 16) (W2 : Mat 16 4) (b2 : Row 4) (k : Fin 57) : EReal :=
  if hk : k.val < 56 then grp xr W1 b1 W2 b2 ⟨k.val / 4, by omega⟩ ⟨k.val % 4, Nat.mod_lt _ (by norm_num)⟩ else s

/-- The third layer: entry n of max (comb · W3 + b3, 0). -/
def fin1 (xr : Fin 126 → EReal) (s : EReal) (W1 : Mat 9 16) (b1 : Row 16) (W2 : Mat 16 4) (b2 : Row 4) (W3 : Mat 57 128)
    (b3 : Row 128) (n : Fin 128) : EReal :=
  max ((∑ k : Fin 57, comb xr s W1 b1 W2 b2 k * W3 (ix2 k n)) + b3 (ix1 n)) 0

/-- The fourth layer: entry a of fin1 · W4 + b4. -/
def outRow (xr : Fin 126 → EReal) (s : EReal) (W1 : Mat 9 16) (b1 : Row 16) (W2 : Mat 16 4) (b2 : Row 4) (W3 : Mat 57 128)
    (b3 : Row 128) (W4 : Mat 128 30) (b4 : Row 30) (a : Fin 30) : EReal :=
  (∑ n : Fin 128, fin1 xr s W1 b1 W2 b2 W3 b3 n * W4 (ix2 n a)) + b4 (ix1 a)

/-- Row i of a matrix of 126 columns, as a function of the column. -/
abbrev rowOf {R : ℕ} (x : Mat R 126) (i : Fin R) : Fin 126 → EReal := fun k => x (ix2 i k)

/-- The first result: tanh of the fourth layer's first 15 entries, row by row. -/
def mean (x : Mat 262144 126) (sale : Mat 262144 1) (W1 : Mat 9 16) (b1 : Row 16) (W2 : Mat 16 4) (b2 : Row 4)
    (W3 : Mat 57 128) (b3 : Row 128) (W4 : Mat 128 30) (b4 : Row 30) : Mat 262144 15 := fun y =>
  Ideal.tanh (outRow (rowOf x ⟨(y 0).val, idx2_lt0 y⟩) (sale (ix2 ⟨(y 0).val, idx2_lt0 y⟩ (0 : Fin 1))) W1 b1 W2 b2 W3 b3 W4 b4
    ⟨(y 1).val, by have := idx2_lt1 y; omega⟩)

/-- The second result: exp of the fourth layer's last 15 entries, row by row. -/
def std (x : Mat 262144 126) (sale : Mat 262144 1) (W1 : Mat 9 16) (b1 : Row 16) (W2 : Mat 16 4) (b2 : Row 4)
    (W3 : Mat 57 128) (b3 : Row 128) (W4 : Mat 128 30) (b4 : Row 30) : Mat 262144 15 := fun y =>
  Ideal.exp (outRow (rowOf x ⟨(y 0).val, idx2_lt0 y⟩) (sale (ix2 ⟨(y 0).val, idx2_lt0 y⟩ (0 : Fin 1))) W1 b1 W2 b2 W3 b3 W4 b4
    ⟨(y 1).val + 15, by have := idx2_lt1 y; omega⟩)

theorem mean_apply (x : Mat 262144 126) (sale : Mat 262144 1) (W1 : Mat 9 16) (b1 : Row 16) (W2 : Mat 16 4) (b2 : Row 4)
    (W3 : Mat 57 128) (b3 : Row 128) (W4 : Mat 128 30) (b4 : Row 30) (i : Fin 262144) (q : Fin 15) :
    mean x sale W1 b1 W2 b2 W3 b3 W4 b4 (ix2 i q)
      = Ideal.tanh (outRow (rowOf x i) (sale (ix2 i (0 : Fin 1))) W1 b1 W2 b2 W3 b3 W4 b4 ⟨q.val, by have := q.isLt; omega⟩) := rfl

theorem std_apply (x : Mat 262144 126) (sale : Mat 262144 1) (W1 : Mat 9 16) (b1 : Row 16) (W2 : Mat 16 4) (b2 : Row 4)
    (W3 : Mat 57 128) (b3 : Row 128) (W4 : Mat 128 30) (b4 : Row 30) (i : Fin 262144) (q : Fin 15) :
    std x sale W1 b1 W2 b2 W3 b3 W4 b4 (ix2 i q)
      = Ideal.exp (outRow (rowOf x i) (sale (ix2 i (0 : Fin 1))) W1 b1 W2 b2 W3 b3 W4 b4 ⟨q.val + 15, by have := q.isLt; omega⟩) := rfl

end Cert.Spec

end
-- ==== Proof.LibBlockDiag.lean ====
/-
  A ROW TIMES A BLOCK-DIAGONAL MATRIX (general lemma on the extended reals; it mentions no program).

  A matrix that carries one r × c matrix W in every diagonal block — entry (k, j) is W (k mod r, j mod c) when k and j
  lie in the same block (k / r = j / c) and 0 otherwise. Column j of the product of a row a with it only sees the r
  entries of a in block j / c: every other term is a product with 0, which is 0 on the extended reals whatever the other
  factor is, and a finite sum may be regrouped.
-/
import Mathlib.Data.EReal.Basic
import Mathlib.Algebra.BigOperators.Fin

open scoped BigOperators

namespace Cert.Lib.BlockDiag

/-- A row `a` times the block-diagonal matrix that carries the `r × c` matrix `W` in every diagonal block: column `j` of the
product is the sum over the `r` rows of `W` only, taken against the entries of `a` in block `j / c`, i.e. the entries at
positions `r * (j / c) + i`. All other terms are products with `0`, which vanish on the extended reals whatever the other
factor is, and `i ↦ r * (j / c) + i` is a bijection from `Fin r` onto the indices `k` with `k / r = j / c`. -/
theorem sum_blockDiag {r c R C : ℕ} (hr : 0 < r) (hc : 0 < c) (a : Fin R → EReal) (W : Fin r → Fin c → EReal) (j : Fin C)
    (hfit : r * (j.val / c) + r ≤ R) :
    ∑ k : Fin R, a k * (if k.val / r = j.val / c then W ⟨k.val % r, Nat.mod_lt _ hr⟩ ⟨j.val % c, Nat.mod_lt _ hc⟩ else 0)
      = ∑ i : Fin r, a ⟨r * (j.val / c) + i.val, by have := i.isLt; omega⟩ * W i ⟨j.val % c, Nat.mod_lt _ hc⟩ := by
  symm
  refine Fintype.sum_of_injective
    (fun i : Fin r => (⟨r * (j.val / c) + i.val, by have := i.isLt; omega⟩ : Fin R)) ?_ _ _ ?_ ?_
  · -- the map i ↦ r * (j / c) + i is injective
    intro x y h
    have h' := congrArg Fin.val h
    simp only at h'
    exact Fin.ext (by omega)
  · -- off its range the summand is a product with 0
    intro k hk
    by_cases h : k.val / r = j.val / c
    · exfalso
      apply hk
      refine ⟨⟨k.val % r, Nat.mod_lt _ hr⟩, ?_⟩
      apply Fin.ext
      show r * (j.val / c) + k.val % r = k.val
      rw [← h]
      exact Nat.div_add_mod k.val r
    · rw [if_neg h, mul_zero]
  · -- on its range the block condition holds and the row index inside the block is i
    intro i
    have h1 : (r * (j.val / c) + i.val) / r = j.val / c := by
      rw [Nat.mul_add_div hr, Nat.div_eq_of_lt i.isLt, Nat.add_zero]
    have h2 : (r * (j.val / c) + i.val) % r = i.val := by
      rw [Nat.mul_add_mod, Nat.mod_eq_of_lt i.isLt]
    have h3 : (⟨(r * (j.val / c) + i.val) % r, Nat.mod_lt _ hr⟩ : Fin r) = i := Fin.ext h2
    show _ = _ * (if (r * (j.val / c) + i.val) / r = j.val / c then
      W ⟨(r * (j.val / c) + i.val) % r, Nat.mod_lt _ hr⟩ ⟨j.val % c, Nat.mod_lt _ hc⟩ else 0)
    rw [if_pos h1, h3]

/-- Summing over one block of indices, in any commutative additive monoid: a sum over `Fin R` whose summand is switched off
(replaced by `0`) outside the block `k / r = g` equals the sum of the `r` terms at positions `r * g + i`, `i < r`.
The map `i ↦ r * g + i` is injective, its range is exactly that block (since `k = r * (k / r) + k % r`), and the terms off
the block are `0`. -/
theorem sum_ite_block {M : Type*} [AddCommMonoid M] {r R : ℕ} (hr : 0 < r) (g : ℕ) (F : Fin R → M)
    (hfit : r * g + r ≤ R) :
    ∑ k : Fin R, (if k.val / r = g then F k else 0)
      = ∑ i : Fin r, F ⟨r * g + i.val, by have := i.isLt; omega⟩ := by
  symm
  refine Fintype.sum_of_injective
    (fun i : Fin r => (⟨r * g + i.val, by have := i.isLt; omega⟩ : Fin R)) ?_ _ _ ?_ ?_
  · intro x y h
    have h' := congrArg Fin.val h
    simp only at h'
    exact Fin.ext (by omega)
  · intro k hk
    by_cases h : k.val / r = g
    · exfalso
      apply hk
      refine ⟨⟨k.val % r, Nat.mod_lt _ hr⟩, ?_⟩
      apply Fin.ext
      show r * g + k.val % r = k.val
      rw [← h]
      exact Nat.div_add_mod k.val r
    · rw [if_neg h]
  · intro i
    have h1 : (r * g + i.val) / r = g := by
      rw [Nat.mul_add_div hr, Nat.div_eq_of_lt i.isLt, Nat.add_zero]
    show _ = (if (r * g + i.val) / r = g then F ⟨r * g + i.val, _⟩ else 0)
    rw [if_pos h1]

/-- The block-diagonal product with the factors in the other order (the matrix entry on the left, the entry of `a` on the
right); multiplication on the extended reals is commutative, so this is `sum_blockDiag` term by term. -/
theorem sum_blockDiag_comm {r c R C : ℕ} (hr : 0 < r) (hc : 0 < c) (a : Fin R → EReal) (W : Fin r → Fin c → EReal)
    (j : Fin C) (hfit : r * (j.val / c) + r ≤ R) :
    ∑ k : Fin R, (if k.val / r = j.val / c then W ⟨k.val % r, Nat.mod_lt _ hr⟩ ⟨j.val % c, Nat.mod_lt _ hc⟩ else 0) * a k
      = ∑ i : Fin r, W i ⟨j.val % c, Nat.mod_lt _ hc⟩ * a ⟨r * (j.val / c) + i.val, by have := i.isLt; omega⟩ := by
  refine (Finset.sum_congr rfl (fun k _ => ?_)).trans
    ((sum_blockDiag hr hc a W j hfit).trans (Finset.sum_congr rfl (fun i _ => ?_)))
  · exact EReal.mul_comm _ _
  · exact EReal.mul_comm _ _

end Cert.Lib.BlockDiag
-- ==== Proof.LibRowDots.lean ====
/-
  MATRIX PRODUCTS WHOSE RESULT ROW COMES FROM THE LEFT OPERAND'S ROW, READ AT AN INDEX (general lemmas; they mention no
  program).

  Two layouts of the right operand, both without batch axes and with one contracted axis of extent K:

  * PLAIN, [M, K] × [K, N] → [M, N]: the left operand's axis 1 is contracted with the right operand's axis 0. The left
    index at result index (i, j) and contraction position k is (i, k), the right index is (k, j).
  * GROUPED, [M, K] × [A, B, K] → [M, A, B]: the left operand's axis 1 is contracted with the right operand's axis 2;
    the right operand's two leading axes become the result's two trailing axes. The left index at result index
    (i, a, b) and contraction position k is (i, k), the right index is (a, b, k).

  In both the contraction index set has one axis, so it is Fin K, and on the extended reals the product is the finite
  sum over k of the operands' entries' products — for a product accumulated into zero and for the accumulator-free
  general dot alike.
-/
import Idealize.ShloMosaic.PureOps.Ideal.Laws
import Idealize.ShloMosaic.Lib.ValueIdx

noncomputable section

open scoped BigOperators

namespace Cert.Lib.RowDots

open Idealize.ShloMosaic Idealize.ShloMosaic.ValueIdx

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

/-! ## Plain: [M, K] × [K, N] → [M, N] -/

section Plain

variable {M K N : Nat} (d : DotDims (⟨2, ![M, K]⟩ : Shape) (⟨2, ![K, N]⟩ : Shape) (⟨2, ![M, N]⟩ : Shape))

/-- The dimension numbers of x · w: contract left axis 1 with right axis 0, keep left axis 0 and right axis 1, no
    batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem Plain.contr_rank (h : Plain d) : d.contr.rank = 1 := by rw [d.rank_contr, h.lc]; rfl

theorem Plain.contr_size (h : Plain d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem Plain.lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
theorem Plain.lhs_col (h : Plain d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the contraction position. -/
theorem Plain.rhs_row (h : Plain d) (j : (⟨2, ![M, N]⟩ : Shape).Idx) (q : d.contr.Idx) :
    (d.rhsIdx j q 0).val = (q ⟨0, by rw [h.contr_rank]; exact Nat.one_pos⟩).val :=
  d.rhsIdx_val_of_single h.rc j q

/-- The right operand's column is the result's column. -/
theorem Plain.rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The contraction's sum, re-indexed by the one contracted coordinate. -/
theorem Plain.sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 k (j 1) := funext fun a => Fin.ext (by
    match a with
    | ⟨0, _⟩ => exact (h.rhs_row _ _).trans hk
    | ⟨1, _⟩ => exact h.rhs_col _ _)
  exact congrArg₂ (· * ·) (congrArg l el) (congrArg r er)

/-- The product into the zero accumulator, at an index. -/
theorem Plain.matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (h.sum_eq l r j)

/-- The accumulator-free general dot, at an index. -/
theorem Plain.dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (h.sum_eq l r j)

end Plain

/-! ## Grouped: [M, K] × [A, B, K] → [M, A, B] -/

section Grouped

variable {M K A B : Nat} (d : DotDims (⟨2, ![M, K]⟩ : Shape) (⟨3, ![A, B, K]⟩ : Shape) (⟨3, ![M, A, B]⟩ : Shape))

/-- The dimension numbers of the product of each row with each of A · B weight rows: contract left axis 1 with right
    axis 2, keep left axis 0 and right axes 0 and 1, no batch axes. -/
structure Grouped : Prop where
  lc : d.lhsContracting = [1]
  rc : d.rhsContracting = [2]
  ln : d.lhsNonContracting = [0]
  rn : d.rhsNonContracting = [0, 1]
  lb : d.lhsBatch = []
  rb : d.rhsBatch = []

variable {d}

theorem Grouped.contr_rank (h : Grouped d) : d.contr.rank = 1 := by rw [d.rank_contr, h.lc]; rfl

theorem Grouped.contr_size (h : Grouped d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem Grouped.lhs_row (h : Grouped d) (j : (⟨3, ![M, A, B]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ (show 0 < 3 by omega) (by simp [h.lb, h.ln])

theorem Grouped.lhs_col (h : Grouped d) (j : (⟨3, ![M, A, B]⟩ : Shape).Idx) (q : d.contr.Idx) :
    (d.lhsIdx j q 1).val = (q ⟨0, by rw [h.contr_rank]; exact Nat.one_pos⟩).val :=
  d.lhsIdx_val_of_single h.lc j q

/-- The right operand's first axis is the result's second. -/
theorem Grouped.rhs_fst (h : Grouped d) (j : (⟨3, ![M, A, B]⟩ : Shape).Idx) (q : d.contr.Idx) : (d.rhsIdx j q 0).val = (j 1).val := by
  have hb : (0 : Fin (⟨3, ![A, B, K]⟩ : Shape).rank) ∉ d.rhsBatch := by rw [h.rb]; exact List.not_mem_nil
  have hn : (0 : Fin (⟨3, ![A, B, K]⟩ : Shape).rank) ∈ d.rhsNonContracting := by rw [h.rn]; simp
  unfold DotDims.rhsIdx
  rw [dif_neg hb, dif_pos hn]
  simp only [Fin.val_cast]
  exact val_congr j _ 1 _ (show 1 < 3 by omega) (by simp [h.lb, h.ln, h.rn])

/-- The right operand's second axis is the result's third. -/
theorem Grouped.rhs_snd (h : Grouped d) (j : (⟨3, ![M, A, B]⟩ : Shape).Idx) (q : d.contr.Idx) : (d.rhsIdx j q 1).val = (j 2).val := by
  have hb : (1 : Fin (⟨3, ![A, B, K]⟩ : Shape).rank) ∉ d.rhsBatch := by rw [h.rb]; exact List.not_mem_nil
  have hn : (1 : Fin (⟨3, ![A, B, K]⟩ : Shape).rank) ∈ d.rhsNonContracting := by rw [h.rn]; simp
  unfold DotDims.rhsIdx
  rw [dif_neg hb, dif_pos hn]
  simp only [Fin.val_cast]
  exact val_congr j _ 2 _ (show 2 < 3 by omega) (by simp [h.lb, h.ln, h.rn])

/-- The right operand's last axis is the contraction position. -/
theorem Grouped.rhs_last (h : Grouped d) (j : (⟨3, ![M, A, B]⟩ : Shape).Idx) (q : d.contr.Idx) :
    (d.rhsIdx j q 2).val = (q ⟨0, by rw [h.contr_rank]; exact Nat.one_pos⟩).val :=
  d.rhsIdx_val_of_single h.rc j q

theorem Grouped.sum_eq (h : Grouped d) (l : (⟨2, ![M, K]⟩ : Shape).Idx → EReal) (r : (⟨3, ![A, B, K]⟩ : Shape).Idx → EReal)
    (j : (⟨3, ![M, A, B]⟩ : Shape).Idx) :
    ∑ q : d.contr.Idx, l (d.lhsIdx j q) * r (d.rhsIdx j q) = ∑ k : Fin K, l (ix2 (j 0) k) * r (ix3 (j 1) (j 2) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix3 (j 1) (j 2) k := funext fun a => Fin.ext (by
    match a with
    | ⟨0, _⟩ => exact h.rhs_fst _ _
    | ⟨1, _⟩ => exact h.rhs_snd _ _
    | ⟨2, _⟩ => exact (h.rhs_last _ _).trans hk)
  exact congrArg₂ (· * ·) (congrArg l el) (congrArg r er)

/-- The accumulator-free general dot, at an index. -/
theorem Grouped.dotGeneral_apply (h : Grouped d) {φ₁ φ₂ : FTy} (prec : Option ContractPrecision) (sched : HostSchedule)
    (l : FVec Ideal (⟨2, ![M, K]⟩ : Shape) φ₁) (r : FVec Ideal (⟨3, ![A, B, K]⟩ : Shape) φ₂) (j : (⟨3, ![M, A, B]⟩ : Shape).Idx) :
    FloatOps.dotGeneral d prec sched l r j = ∑ k : Fin K, l (ix2 (j 0) k) * r (ix3 (j 1) (j 2) k) :=
  (Ideal.dotGeneral_apply d prec sched l r j).trans (h.sum_eq l r j)

end Grouped

end Cert.Lib.RowDots

end
-- ==== Proof.KernelBody.lean ====
/-
  THE KERNEL'S BODY AT ONE ENTRY OF ITS OUTPUT BLOCK.

  The body multiplies the block's 4096 feature rows by a 126 × 224 matrix, adds a bias row, takes max with 0, multiplies by
  a 224 × 56 matrix, adds a bias row, takes max with 0, appends the extra column, and runs the third and fourth layers.
  When the 126 × 224 matrix carries W1 in 14 diagonal blocks (zeros elsewhere), the 224 × 56 matrix carries W2 likewise,
  and the two bias rows are b1 and b2 repeated 14 times, row p of the result is the network of Spec applied to row p of the
  block: the products with the zeros vanish and what is left of column 16 g + h of the first product is group g's
  contraction with column h of W1 (LibBlockDiag), the same for the second product.
-/
import proofs.«163774_j12446815223911_1_alg».proof.Proof.Gen.KernelIdeal.Value
import proofs.«163774_j12446815223911_1_alg».proof.Proof.Spec
import proofs.«163774_j12446815223911_1_alg».proof.Proof.LibBlockDiag
import proofs.«163774_j12446815223911_1_alg».proof.Proof.LibRowDots

noncomputable section

open scoped BigOperators

namespace Cert.KernelIdeal.Body

open Cert.KernelIdeal Cert.KernelIdeal.Gen Idealize.ShloMosaic Idealize.ShloMosaic.ValueIdx Cert.Spec

/-- What the body needs to know of its six weight operands that the host prepared: the two block-diagonal matrices and
    the four bias rows, in terms of the network's parameters. -/
structure Weights (P1 : Vec Ideal S126x224 .f32) (P2 : Vec Ideal S1x224 .f32) (P3 : Vec Ideal S224x56 .f32)
    (P4 : Vec Ideal S1x56 .f32) (P7 : Vec Ideal S1x128 .f32) (P9 : Vec Ideal S1x30 .f32)
    (W1 : Mat 9 16) (b1 : Row 16) (W2 : Mat 16 4) (b2 : Row 4) (b3 : Row 128) (b4 : Row 30) : Prop where
  w1 : ∀ (k : Fin 126) (j : Fin 224), P1 (ix2 k j)
    = if k.val / 9 = j.val / 16 then W1 (ix2 ⟨k.val % 9, Nat.mod_lt _ (by norm_num)⟩ ⟨j.val % 16, Nat.mod_lt _ (by norm_num)⟩) else 0
  b1 : ∀ j : Fin 224, P2 (ix2 (0 : Fin 1) j) = b1 (ix1 ⟨j.val % 16, Nat.mod_lt _ (by norm_num)⟩)
  w2 : ∀ (k : Fin 224) (j : Fin 56), P3 (ix2 k j)
    = if k.val / 16 = j.val / 4 then W2 (ix2 ⟨k.val % 16, Nat.mod_lt _ (by norm_num)⟩ ⟨j.val % 4, Nat.mod_lt _ (by norm_num)⟩) else 0
  b2 : ∀ j : Fin 56, P4 (ix2 (0 : Fin 1) j) = b2 (ix1 ⟨j.val % 4, Nat.mod_lt _ (by norm_num)⟩)
  b3 : ∀ n : Fin 128, P7 (ix2 (0 : Fin 1) n) = b3 (ix1 n)
  b4 : ∀ a : Fin 30, P9 (ix2 (0 : Fin 1) a) = b4 (ix1 a)

/-! ## One dense layer, read at an entry -/

section Dense

variable {M K N : Nat}

/-- A bias row repeated down the rows, read at (p, j), is the row's entry j. -/
theorem biasRow_apply (b : FVec Ideal (⟨2, ![1, N]⟩ : Shape) .f32) (hc : (⟨2, ![1, N]⟩ : Shape).ShapeCasts ⟨2, ![1, N]⟩)
    (hb : (⟨2, ![1, N]⟩ : Shape).Broadcasts ⟨2, ![M, N]⟩) (p : Fin M) (j : Fin N) :
    broadcastTo (⟨2, ![M, N]⟩ : Shape) (shapeCast (⟨2, ![1, N]⟩ : Shape) b hc) hb (ix2 p j) = b (ix2 (0 : Fin 1) j) := by
  rw [shapeCast_self]
  refine broadcastTo_apply b hb (ix2 p j) (ix2 (0 : Fin 1) j) (fun a => ?_)
  match a with
  | ⟨0, _⟩ => show (0 : Nat) = if (1 : Nat) = 1 then 0 else _; rw [if_pos rfl]
  | ⟨1, _⟩ =>
    show j.val = if N = 1 then 0 else j.val
    split_ifs with h
    · have := j.isLt; omega
    · rfl

/-- The product of the rows with a weight matrix, plus a bias row, then max with 0, read at (p, j): the sum over the
    contracted coordinate of row p's entries times column j's, plus the bias's entry j, against 0. -/
theorem dense_relu_apply (d : DotDims (⟨2, ![M, K]⟩ : Shape) (⟨2, ![K, N]⟩ : Shape) (⟨2, ![M, N]⟩ : Shape))
    (hd : Cert.Lib.RowDots.Plain d) (a : FVec Ideal (⟨2, ![M, K]⟩ : Shape) .f32) (w : FVec Ideal (⟨2, ![K, N]⟩ : Shape) .f32)
    (b : FVec Ideal (⟨2, ![1, N]⟩ : Shape) .f32) (hc : (⟨2, ![1, N]⟩ : Shape).ShapeCasts ⟨2, ![1, N]⟩)
    (hb : (⟨2, ![1, N]⟩ : Shape).Broadcasts ⟨2, ![M, N]⟩) (p : Fin M) (j : Fin N) :
    maximumf (addf (matmul d none a w (constant (⟨2, ![M, N]⟩ : Shape) .f32 0x00000000#32))
        (broadcastTo (⟨2, ![M, N]⟩ : Shape) (shapeCast (⟨2, ![1, N]⟩ : Shape) b hc) hb))
      (broadcast (⟨2, ![M, N]⟩ : Shape) (Scalar.ofBits (F := Ideal) .f32 0x00000000#32)) (ix2 p j)
      = max ((∑ k : Fin K, a (ix2 p k) * w (ix2 k j)) + b (ix2 (0 : Fin 1) j)) 0 := by
  show max (FloatOps.matmul d none a w (constant (⟨2, ![M, N]⟩ : Shape) .f32 0x00000000#32) (ix2 p j)
      + broadcastTo (⟨2, ![M, N]⟩ : Shape) (shapeCast (⟨2, ![1, N]⟩ : Shape) b hc) hb (ix2 p j)) (Ideal.ofBits .f32 0x00000000#32) = _
  rw [hd.matmul_zero_apply, biasRow_apply, Ideal.ofBits_zero_f32]
  rfl

end Dense

variable (P0 : Vec Ideal S4096x126 .f32) (P1 : Vec Ideal S126x224 .f32) (P2 : Vec Ideal S1x224 .f32)
  (P3 : Vec Ideal S224x56 .f32) (P4 : Vec Ideal S1x56 .f32) (P5 : Vec Ideal S4096x1 .f32) (P6 : Vec Ideal S57x128 .f32)
  (P7 : Vec Ideal S1x128 .f32) (P8 : Vec Ideal S128x30 .f32) (P9 : Vec Ideal S1x30 .f32)
  (W1 : Mat 9 16) (b1 : Row 16) (W2 : Mat 16 4) (b2 : Row 4) (b3 : Row 128) (b4 : Row 30)

/-! ## The body's values, layer by layer -/

theorem plain1 : Cert.Lib.RowDots.Plain dot_S4096x126_S126x224_S4096x224_1_0_0_1_n_n := ⟨rfl, rfl, rfl, rfl, rfl, rfl⟩
theorem plain2 : Cert.Lib.RowDots.Plain dot_S4096x224_S224x56_S4096x56_1_0_0_1_n_n := ⟨rfl, rfl, rfl, rfl, rfl, rfl⟩
theorem plain3 : Cert.Lib.RowDots.Plain dot_S4096x57_S57x128_S4096x128_1_0_0_1_n_n := ⟨rfl, rfl, rfl, rfl, rfl, rfl⟩
theorem plain4 : Cert.Lib.RowDots.Plain dot_S4096x128_S128x30_S4096x30_1_0_0_1_n_n := ⟨rfl, rfl, rfl, rfl, rfl, rfl⟩

/-- The first layer over the block: max (x · A1 + c1's row, 0). -/
def T9 (x : FVec Ideal S4096x126 .f32) (A1 : FVec Ideal S126x224 .f32) (c1 : FVec Ideal S1x224 .f32) : FVec Ideal S4096x224 .f32 :=
  maximumf (addf (matmul dot_S4096x126_S126x224_S4096x224_1_0_0_1_n_n none x (shapeCast S126x224 A1 shapeCasts_S126x224_S126x224) (constant S4096x224 .f32 0x00000000#32)) (broadcastTo S4096x224 (shapeCast S1x224 c1 shapeCasts_S1x224_S1x224) broadcasts_S1x224_S4096x224)) (broadcast S4096x224 (Scalar.ofBits .f32 0x00000000#32))

/-- The second layer over the block: max (y · A2 + c2's row, 0). -/
def T18 (y : FVec Ideal S4096x224 .f32) (A2 : FVec Ideal S224x56 .f32) (c2 : FVec Ideal S1x56 .f32) : FVec Ideal S4096x56 .f32 :=
  maximumf (addf (matmul dot_S4096x224_S224x56_S4096x56_1_0_0_1_n_n none y (shapeCast S224x56 A2 shapeCasts_S224x56_S224x56) (constant S4096x56 .f32 0x00000000#32)) (broadcastTo S4096x56 (shapeCast S1x56 c2 shapeCasts_S1x56_S1x56) broadcasts_S1x56_S4096x56)) (broadcast S4096x56 (Scalar.ofBits .f32 0x00000000#32))

/-- The extra column appended. -/
def T20 (z : FVec Ideal S4096x56 .f32) (s : FVec Ideal S4096x1 .f32) : FVec Ideal S4096x57 .f32 :=
  concatenate S4096x57 1 [⟨S4096x56, z⟩, ⟨S4096x1, s⟩] concatenates_S4096x56_S4096x1_S4096x57_d1

/-- The third layer over the block: max (u · A3 + c3's row, 0). -/
def T28 (u : FVec Ideal S4096x57 .f32) (A3 : FVec Ideal S57x128 .f32) (c3 : FVec Ideal S1x128 .f32) : FVec Ideal S4096x128 .f32 :=
  maximumf (addf (matmul dot_S4096x57_S57x128_S4096x128_1_0_0_1_n_n none u A3 (constant S4096x128 .f32 0x00000000#32)) (broadcastTo S4096x128 (shapeCast S1x128 c3 shapeCasts_S1x128_S1x128) broadcasts_S1x128_S4096x128)) (broadcast S4096x128 (Scalar.ofBits .f32 0x00000000#32))

/-- The fourth layer's product over the block: t · A4. -/
def T30 (t : FVec Ideal S4096x128 .f32) (A4 : FVec Ideal S128x30 .f32) : FVec Ideal S4096x30 .f32 :=
  matmul dot_S4096x128_S128x30_S4096x30_1_0_0_1_n_n none t A4 (constant S4096x30 .f32 0x00000000#32)

/-- The body's arithmetic is the five layers composed. -/
theorem k0_pay4_eq : k0_pay4 P0 P1 P2 P3 P4 P5 P6 P7 P8 = T30 (T28 (T20 (T18 (T9 P0 P1 P2) P3 P4) P5) P6 P7) P8 := rfl

/-- The first small layer only depends on the values of its two indices. -/
theorem hid_congr (xr : Fin 126 → EReal) {g g' : Fin 14} {h h' : Fin 16} (eg : g.val = g'.val) (eh : h.val = h'.val) :
    hid xr W1 b1 g h = hid xr W1 b1 g' h' := by
  rw [Fin.ext eg, Fin.ext eh]

/-- Column 16 g + h of the first layer on row p is group g's first small layer at h: the matrix is W1 in 14 diagonal
    blocks, so only the 9 features of group g meet nonzero entries. -/
theorem T9_apply (hw : Weights P1 P2 P3 P4 P7 P9 W1 b1 W2 b2 b3 b4) (p : Fin 4096) (j : Fin 224) :
    T9 P0 P1 P2 (ix2 p j) = hid (fun k => P0 (ix2 p k)) W1 b1 ⟨j.val / 16, by have := j.isLt; omega⟩
      ⟨j.val % 16, Nat.mod_lt _ (by norm_num)⟩ := by
  unfold T9
  rw [shapeCast_self]
  refine (dense_relu_apply _ plain1 P0 P1 P2 _ _ p j).trans ?_
  have hs : (∑ k : Fin 126, P0 (ix2 p k) * P1 (ix2 k j))
      = ∑ i : Fin 9, (fun k : Fin 126 => P0 (ix2 p k)) ⟨9 * (j.val / 16) + i.val, by have := j.isLt; have := i.isLt; omega⟩
          * W1 (ix2 i ⟨j.val % 16, Nat.mod_lt _ (by norm_num)⟩) :=
    (Finset.sum_congr rfl fun k _ => congrArg (P0 (ix2 p k) * ·) (hw.w1 k j)).trans
      (Cert.Lib.BlockDiag.sum_blockDiag (r := 9) (c := 16) (by norm_num) (by norm_num) (fun k : Fin 126 => P0 (ix2 p k))
        (fun i h => W1 (ix2 i h)) j (by have := j.isLt; omega))
  rw [hs, hw.b1 j]
  rfl

/-- Column 4 g + o of the second layer on row p is group g's second small layer at o, when the first layer's row is the
    groups' first small layers. -/
theorem T18_apply (hw : Weights P1 P2 P3 P4 P7 P9 W1 b1 W2 b2 b3 b4) (xr : Fin 126 → EReal) (y : FVec Ideal S4096x224 .f32)
    (p : Fin 4096)
    (hy : ∀ k : Fin 224, y (ix2 p k) = hid xr W1 b1 ⟨k.val / 16, by have := k.isLt; omega⟩ ⟨k.val % 16, Nat.mod_lt _ (by norm_num)⟩)
    (j : Fin 56) :
    T18 y P3 P4 (ix2 p j) = grp xr W1 b1 W2 b2 ⟨j.val / 4, by have := j.isLt; omega⟩ ⟨j.val % 4, Nat.mod_lt _ (by norm_num)⟩ := by
  unfold T18
  rw [shapeCast_self]
  refine (dense_relu_apply _ plain2 y P3 P4 _ _ p j).trans ?_
  have hs : (∑ k : Fin 224, y (ix2 p k) * P3 (ix2 k j))
      = ∑ h : Fin 16, hid xr W1 b1 ⟨j.val / 4, by have := j.isLt; omega⟩ h * W2 (ix2 h ⟨j.val % 4, Nat.mod_lt _ (by norm_num)⟩) :=
    (Finset.sum_congr rfl fun k _ => congrArg₂ (· * ·) (hy k) (hw.w2 k j)).trans
      ((Cert.Lib.BlockDiag.sum_blockDiag (r := 16) (c := 4) (by norm_num) (by norm_num)
          (fun k : Fin 224 => hid xr W1 b1 ⟨k.val / 16, by have := k.isLt; omega⟩ ⟨k.val % 16, Nat.mod_lt _ (by norm_num)⟩)
          (fun i o => W2 (ix2 i o)) j (by have := j.isLt; omega)).trans
        (Finset.sum_congr rfl fun i _ => congrArg (· * W2 (ix2 i ⟨j.val % 4, Nat.mod_lt _ (by norm_num)⟩))
          (hid_congr W1 b1 xr (by show (16 * (j.val / 4) + i.val) / 16 = j.val / 4; have := i.isLt; omega)
            (by show (16 * (j.val / 4) + i.val) % 16 = i.val; have := i.isLt; omega))))
  rw [hs, hw.b2 j]
  rfl

/-- Entry k of the row with the extra column appended is the third layer's input k. -/
theorem T20_apply (xr : Fin 126 → EReal) (z : FVec Ideal S4096x56 .f32) (p : Fin 4096)
    (hz : ∀ j : Fin 56, z (ix2 p j) = grp xr W1 b1 W2 b2 ⟨j.val / 4, by have := j.isLt; omega⟩ ⟨j.val % 4, Nat.mod_lt _ (by norm_num)⟩)
    (k : Fin 57) :
    T20 z P5 (ix2 p k) = comb xr (P5 (ix2 p (0 : Fin 1))) W1 b1 W2 b2 k := by
  unfold T20 comb
  by_cases hk : k.val < 56
  · rw [dif_pos hk]
    refine (concatenate_pair_apply_left (1 : Fin S4096x57.rank) z P5 _ (ix2 p k) rfl (ix2 p ⟨k.val, hk⟩) (fun b => ?_)).trans
      (hz ⟨k.val, hk⟩)
    match b with
    | ⟨0, _⟩ => rfl
    | ⟨1, _⟩ => rfl
  · rw [dif_neg hk]
    refine concatenate_pair_apply_right (1 : Fin S4096x57.rank) z P5 _ (ix2 p k) rfl rfl (ix2 p (0 : Fin 1)) (fun b hb => ?_) ?_
    · match b with
      | ⟨0, _⟩ => rfl
      | ⟨1, _⟩ => exact absurd rfl hb
    · show 0 + 56 = k.val
      have := k.isLt; omega

/-- Entry n of the third layer on row p. -/
theorem T28_apply (hw : Weights P1 P2 P3 P4 P7 P9 W1 b1 W2 b2 b3 b4) (xr : Fin 126 → EReal) (s : EReal)
    (u : FVec Ideal S4096x57 .f32) (p : Fin 4096) (hu : ∀ k : Fin 57, u (ix2 p k) = comb xr s W1 b1 W2 b2 k) (n : Fin 128) :
    T28 u P6 P7 (ix2 p n) = fin1 xr s W1 b1 W2 b2 P6 b3 n := by
  unfold T28
  refine (dense_relu_apply _ plain3 u P6 P7 _ _ p n).trans ?_
  rw [Finset.sum_congr rfl fun k _ => congrArg (· * P6 (ix2 k n)) (hu k), hw.b3 n]
  rfl

/-- Entry a of the fourth layer's product on row p. -/
theorem T30_apply (xr : Fin 126 → EReal) (s : EReal) (t : FVec Ideal S4096x128 .f32) (p : Fin 4096)
    (ht : ∀ n : Fin 128, t (ix2 p n) = fin1 xr s W1 b1 W2 b2 P6 b3 n) (a : Fin 30) :
    T30 t P8 (ix2 p a) = ∑ n : Fin 128, fin1 xr s W1 b1 W2 b2 P6 b3 n * P8 (ix2 n a) := by
  unfold T30
  refine (plain4.matmul_zero_apply none t P8 (ix2 p a)).trans ?_
  exact Finset.sum_congr rfl fun n _ => congrArg (· * P8 (ix2 n a)) (ht n)

/-- Entry (p, a) of the body's arithmetic: the fourth layer's product on row p, before its bias. -/
theorem pay4_apply (hw : Weights P1 P2 P3 P4 P7 P9 W1 b1 W2 b2 b3 b4) (p : Fin 4096) (a : Fin 30) :
    k0_pay4 P0 P1 P2 P3 P4 P5 P6 P7 P8 (ix2 p a)
      = ∑ n : Fin 128, fin1 (fun k => P0 (ix2 p k)) (P5 (ix2 p (0 : Fin 1))) W1 b1 W2 b2 P6 b3 n * P8 (ix2 n a) := by
  rw [k0_pay4_eq]
  exact T30_apply P6 P8 W1 b1 W2 b2 b3 _ _ _ p (fun n => T28_apply P1 P2 P3 P4 P6 P7 P9 W1 b1 W2 b2 b3 b4 hw _ _ _ p
    (fun k => T20_apply P5 W1 b1 W2 b2 _ _ p (fun j => T18_apply P1 P2 P3 P4 P7 P9 W1 b1 W2 b2 b3 b4 hw _ _ p
      (fun k' => T9_apply P0 P1 P2 P3 P4 P7 P9 W1 b1 W2 b2 b3 b4 hw p k') j) k) n) a

/-- Entry (p, q) of the first output block: tanh of entry q of the network's fourth layer on row p. -/
theorem E10_apply (hw : Weights P1 P2 P3 P4 P7 P9 W1 b1 W2 b2 b3 b4) (p : Fin 4096) (q : Fin 15) :
    Cert.KernelIdeal.Value.E10 P0 P1 P2 P3 P4 P5 P6 P7 P8 P9 (ix2 p q)
      = Ideal.tanh (outRow (fun k => P0 (ix2 p k)) (P5 (ix2 p (0 : Fin 1))) W1 b1 W2 b2 P6 b3 P8 b4
          ⟨q.val, by have := q.isLt; omega⟩) := by
  have e0 : Cert.KernelIdeal.Value.ix10_0 (ix2 p q) = ix2 p (⟨q.val, by have := q.isLt; omega⟩ : Fin 30) := by
    funext a
    match a with
    | ⟨0, _⟩ => rfl
    | ⟨1, _⟩ => rfl
  have e1 : Cert.KernelIdeal.Value.ix10_1 (ix2 p q) = ix2 (0 : Fin 1) (⟨q.val, by have := q.isLt; omega⟩ : Fin 30) := by
    funext a
    match a with
    | ⟨0, _⟩ => rfl
    | ⟨1, _⟩ => rfl
  show Ideal.tanh (k0_pay4 P0 P1 P2 P3 P4 P5 P6 P7 P8 (Cert.KernelIdeal.Value.ix10_0 (ix2 p q))
    + P9 (Cert.KernelIdeal.Value.ix10_1 (ix2 p q))) = _
  rw [e0, e1, pay4_apply P0 P1 P2 P3 P4 P5 P6 P7 P8 P9 W1 b1 W2 b2 b3 b4 hw, hw.b4]
  rfl

/-- Entry (p, q) of the second output block: exp of entry 15 + q of the network's fourth layer on row p. -/
theorem E11_apply (hw : Weights P1 P2 P3 P4 P7 P9 W1 b1 W2 b2 b3 b4) (p : Fin 4096) (q : Fin 15) :
    Cert.KernelIdeal.Value.E11 P0 P1 P2 P3 P4 P5 P6 P7 P8 P9 (ix2 p q)
      = Ideal.exp (outRow (fun k => P0 (ix2 p k)) (P5 (ix2 p (0 : Fin 1))) W1 b1 W2 b2 P6 b3 P8 b4
          ⟨q.val + 15, by have := q.isLt; omega⟩) := by
  have e0 : Cert.KernelIdeal.Value.ix11_0 (ix2 p q) = ix2 p (⟨q.val + 15, by have := q.isLt; omega⟩ : Fin 30) := by
    funext a
    match a with
    | ⟨0, _⟩ => rfl
    | ⟨1, _⟩ => rfl
  have e1 : Cert.KernelIdeal.Value.ix11_1 (ix2 p q) = ix2 (0 : Fin 1) (⟨q.val + 15, by have := q.isLt; omega⟩ : Fin 30) := by
    funext a
    match a with
    | ⟨0, _⟩ => rfl
    | ⟨1, _⟩ => rfl
  show Ideal.exp (k0_pay4 P0 P1 P2 P3 P4 P5 P6 P7 P8 (Cert.KernelIdeal.Value.ix11_0 (ix2 p q))
    + P9 (Cert.KernelIdeal.Value.ix11_1 (ix2 p q))) = _
  rw [e0, e1, pay4_apply P0 P1 P2 P3 P4 P5 P6 P7 P8 P9 W1 b1 W2 b2 b3 b4 hw, hw.b4]
  rfl

end Cert.KernelIdeal.Body

end
-- ==== Proof.KernelOut.lean ====
/-
  THE BODY'S TWO OUTPUT BUFFERS, ENTRY BY ENTRY, OVER ANY OPERAND BLOCKS.

  The body stores each output block whole, once; so what it leaves in the first output buffer at (p, q) is tanh of entry q
  of the network's fourth layer on row p of the feature block (KernelBody), and in the second exp of entry 15 + q —
  provided the weight operands are the block-diagonal matrices and repeated bias rows the host prepares.
-/
import proofs.«163774_j12446815223911_1_alg».proof.Proof.KernelBody

noncomputable section

namespace Cert.KernelIdeal.Out

open Cert.KernelIdeal Cert.KernelIdeal.Gen Idealize.ShloMosaic Idealize.ShloMosaic.ValueIdx Cert.Spec Cert.KernelIdeal.Body

variable (x0 : Vec Ideal S4096x126 .f32) (x1 : Vec Ideal S4096x1 .f32) (x2 : Vec Ideal S126x224 .f32)
  (x3 : Vec Ideal S1x224 .f32) (x4 : Vec Ideal S224x56 .f32) (x5 : Vec Ideal S1x56 .f32) (x6 : Vec Ideal S57x128 .f32)
  (x7 : Vec Ideal S1x128 .f32) (x8 : Vec Ideal S128x30 .f32) (x9 : Vec Ideal S1x30 .f32)
  (W1 : Mat 9 16) (b1 : Row 16) (W2 : Mat 16 4) (b2 : Row 4) (b3 : Row 128) (b4 : Row 30)

/-- The first output buffer after the body. -/
theorem out10_apply (hw : Weights x2 x3 x4 x5 x7 x9 W1 b1 W2 b2 b3 b4) (y : S4096x15.Idx) :
    out0_10 x0 x1 x2 x3 x4 x5 x6 x7 x8 x9 y
      = Ideal.tanh (outRow (fun k => x0 (ix2 (⟨(y 0).val, idx2_lt0 y⟩ : Fin 4096) k))
          (x1 (ix2 (⟨(y 0).val, idx2_lt0 y⟩ : Fin 4096) (0 : Fin 1))) W1 b1 W2 b2 x6 b3 x8 b4
          ⟨(y 1).val, by have := idx2_lt1 y; omega⟩) := by
  have hz : (![0, 0] : Fin 2 → Nat) = fun _ => 0 := funext fun a => by fin_cases a <;> rfl
  unfold out0_10
  rw [Value.canon10_eq]
  simp only [View.ld_unit_zero (S := S4096x126) hz, View.ld_unit_zero (S := S4096x1) hz, View.ld_unit_zero (S := S126x224) hz, View.ld_unit_zero (S := S1x224) hz, View.ld_unit_zero (S := S224x56) hz, View.ld_unit_zero (S := S1x56) hz, View.ld_unit_zero (S := S57x128) hz, View.ld_unit_zero (S := S1x128) hz, View.ld_unit_zero (S := S128x30) hz, View.ld_unit_zero (S := S1x30) hz]
  have key := E10_apply x0 x2 x3 x4 x5 x1 x6 x7 x8 x9 W1 b1 W2 b2 b3 b4 hw
    (⟨(y 0).val, idx2_lt0 y⟩ : Fin 4096) (⟨(y 1).val, idx2_lt1 y⟩ : Fin 15)
  conv_lhs => rw [eq_ix2 y]
  exact key

/-- The second output buffer after the body. -/
theorem out11_apply (hw : Weights x2 x3 x4 x5 x7 x9 W1 b1 W2 b2 b3 b4) (y : S4096x15.Idx) :
    out0_11 x0 x1 x2 x3 x4 x5 x6 x7 x8 x9 y
      = Ideal.exp (outRow (fun k => x0 (ix2 (⟨(y 0).val, idx2_lt0 y⟩ : Fin 4096) k))
          (x1 (ix2 (⟨(y 0).val, idx2_lt0 y⟩ : Fin 4096) (0 : Fin 1))) W1 b1 W2 b2 x6 b3 x8 b4
          ⟨(y 1).val + 15, by have := idx2_lt1 y; omega⟩) := by
  have hz : (![0, 0] : Fin 2 → Nat) = fun _ => 0 := funext fun a => by fin_cases a <;> rfl
  unfold out0_11
  rw [Value.canon11_eq]
  simp only [View.ld_unit_zero (S := S4096x126) hz, View.ld_unit_zero (S := S4096x1) hz, View.ld_unit_zero (S := S126x224) hz, View.ld_unit_zero (S := S1x224) hz, View.ld_unit_zero (S := S224x56) hz, View.ld_unit_zero (S := S1x56) hz, View.ld_unit_zero (S := S57x128) hz, View.ld_unit_zero (S := S1x128) hz, View.ld_unit_zero (S := S128x30) hz, View.ld_unit_zero (S := S1x30) hz]
  have key := E11_apply x0 x2 x3 x4 x5 x1 x6 x7 x8 x9 W1 b1 W2 b2 b3 b4 hw
    (⟨(y 0).val, idx2_lt0 y⟩ : Fin 4096) (⟨(y 1).val, idx2_lt1 y⟩ : Fin 15)
  conv_lhs => rw [eq_ix2 y]
  exact key

end Cert.KernelIdeal.Out

end
-- ==== Proof.KernelValue.lean ====
/-
  THE KERNEL'S TWO OUTPUT ARRAYS AFTER THE RUN ARE THE NETWORK OF Spec, ROW BY ROW.

  At grid point t the body is handed rows 4096 t … 4096 t + 4095 of the features and of the extra column, and the weight
  operands the host prepared (KernelHost, KernelHostBias): the two block-diagonal matrices, the two repeated bias rows and
  the last two bias rows. What it writes back at (p, q) of its two output blocks is therefore tanh, resp. exp, of the fourth
  layer's entry q, resp. 15 + q, on row 4096 t + p (KernelOut): the block of Spec.mean, resp. Spec.std, at point t. The 64
  blocks tile the output arrays (KernelCover), so after the run each array holds Spec.mean, resp. Spec.std, of the
  arguments.
-/
import proofs.«163774_j12446815223911_1_alg».proof.Proof.KernelHost
import proofs.«163774_j12446815223911_1_alg».proof.Proof.KernelHostBias
import proofs.«163774_j12446815223911_1_alg».proof.Proof.KernelBlocks
import proofs.«163774_j12446815223911_1_alg».proof.Proof.KernelOut
import proofs.«163774_j12446815223911_1_alg».proof.Proof.KernelCover

noncomputable section

namespace Cert.KernelIdeal.RunValue

open Cert.KernelIdeal Cert.KernelIdeal.Gen Idealize.ShloMosaic Idealize.ShloMosaic.TcCoe Idealize.SL.Sem
open Idealize.ShloMosaic.ValueIdx Cert.Spec Cert.Lib.BlockDiagScatter
open Idealize.ShloMosaic.Pipeline (Dat)

variable (m : (ℓ : Loc nD τ sig) → Buf (Elt Ideal) ℓ) (ρ : Dev nD → PrngReg)

/-- The weight operands at any grid point are what the body's value lemma asks for. -/
theorem weights (c : Dev nD) (t : Fin cfg0.N) :
    Body.Weights (iblk m c 2 t) (iblk m c 3 t) (iblk m c 4 t) (iblk m c 5 t) (iblk m c 7 t) (iblk m c 9 t)
      (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) where
  w1 := fun k j => (congrFun (Blocks.iblk2_eq m c t) (ix2 k j)).trans
    ((congrFun (Host.wbd1_eq m c) (ix2 k j)).trans (bdMat_full (α := EReal) Host.h9 Host.h16 14 (by norm_num) _ k j))
  b1 := fun j => (congrFun (Blocks.iblk3_eq m c t) (ix2 (0 : Fin 1) j)).trans (Host.b1t_apply m c j)
  w2 := fun k j => (congrFun (Blocks.iblk4_eq m c t) (ix2 k j)).trans
    ((congrFun (Host.wbd2_eq m c) (ix2 k j)).trans (bdMat_full (α := EReal) Host.h16 Host.h4 14 (by norm_num) _ k j))
  b2 := fun j => (congrFun (Blocks.iblk5_eq m c t) (ix2 (0 : Fin 1) j)).trans (Host.b2t_apply m c j)
  b3 := fun n => (congrFun (Blocks.iblk7_eq m c t) (ix2 (0 : Fin 1) n)).trans (Host.b3r_apply m c n)
  b4 := fun a => (congrFun (Blocks.iblk9_eq m c t) (ix2 (0 : Fin 1) a)).trans (Host.b4r_apply m c a)

/-- The first output array the run ends with: the mean head of the network on the arguments. -/
abbrev mean10 (c : Dev nD) : S262144x15.Idx → EReal := Spec.mean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The second output array the run ends with: the std head. -/
abbrev std11 (c : Dev nD) : S262144x15.Idx → EReal := Spec.std (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Row p of the feature block at point t is row 4096 t + p of the feature argument. -/
theorem row_eq (c : Dev nD) (t : Fin cfg0.N) (p : Fin 4096) :
    (fun k : Fin 126 => (iblk m c 0 t : S4096x126.Idx → EReal) (ix2 p k))
      = rowOf (m ((c : Thread nD τ).loc main_arg0)) (⟨t.val * 4096 + p.val, Blocks.row_lt t p⟩ : Fin 262144) :=
  funext fun k => (Blocks.iblk0_apply m c t p k).trans (congrFun (V_main_arg0 m c) _)

theorem sale_eq (c : Dev nD) (t : Fin cfg0.N) (p : Fin 4096) :
    (iblk m c 1 t : S4096x1.Idx → EReal) (ix2 p (0 : Fin 1))
      = (m ((c : Thread nD τ).loc main_arg1)) (ix2 (⟨t.val * 4096 + p.val, Blocks.row_lt t p⟩ : Fin 262144) (0 : Fin 1)) :=
  (Blocks.iblk1_apply m c t p).trans (congrFun (V_main_arg1 m c) _)

theorem w3_eq (c : Dev nD) (t : Fin cfg0.N) : (iblk m c 6 t : S57x128.Idx → EReal) = (m ((c : Thread nD τ).loc main_arg6)) :=
  (Blocks.iblk6_eq m c t).trans (V_main_arg6 m c)

theorem w4_eq (c : Dev nD) (t : Fin cfg0.N) : (iblk m c 8 t : S128x30.Idx → EReal) = (m ((c : Thread nD τ).loc main_arg8)) :=
  (Blocks.iblk8_eq m c t).trans (V_main_arg8 m c)

/-- What point t writes back to the first output array is block t of the mean head. -/
theorem flushed10_eq (c : Dev nD) (t : Fin cfg0.N) :
    (dats m 0 c).flushed 10 t = ((cfg0.win 10).blk t).view.read (Elt Ideal) (mean10 m c) := by
  rw [Value.flushed10]
  funext j
  show out0_10 (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) j)
    = mean10 m c (((cfg0.win 10).blk t).view.emb j)
  rw [Out.out10_apply _ _ _ _ _ _ _ _ _ _ _ _ _ _ _ _ (weights m c t), Blocks.emb10 t j]
  unfold mean10
  rw [Spec.mean_apply]
  rw [row_eq m c t, sale_eq m c t, w3_eq m c t, w4_eq m c t]

/-- What point t writes back to the second output array is block t of the std head. -/
theorem flushed11_eq (c : Dev nD) (t : Fin cfg0.N) :
    (dats m 0 c).flushed 11 t = ((cfg0.win 11).blk t).view.read (Elt Ideal) (std11 m c) := by
  rw [Value.flushed11]
  funext j
  show out0_11 (iblk m c 0 t) (iblk m c 1 t) (iblk m c 2 t) (iblk m c 3 t) (iblk m c 4 t) (iblk m c 5 t) (iblk m c 6 t) (iblk m c 7 t) (iblk m c 8 t) (iblk m c 9 t) ((cfg0.win 11).xinj (grid0.coords t) j)
    = std11 m c (((cfg0.win 11).blk t).view.emb j)
  rw [Out.out11_apply _ _ _ _ _ _ _ _ _ _ _ _ _ _ _ _ (weights m c t), Blocks.emb11 t j]
  unfold std11
  rw [Spec.std_apply]
  rw [row_eq m c t, sale_eq m c t, w3_eq m c t, w4_eq m c t]

/-- The first output array after the run. -/
theorem final10 (c : Dev nD) : (dats m 0 c).arrAt 10 cfg0.N = mean10 m c :=
  (dats m 0 c).arrAt_eq_of_cover 10 (mean10 m c) (fun t _ => flushed10_eq m c t) Cover.cover10

/-- The second output array after the run. -/
theorem final11 (c : Dev nD) : (dats m 0 c).arrAt 11 cfg0.N = std11 m c :=
  (dats m 0 c).arrAt_eq_of_cover 11 (std11 m c) (fun t _ => flushed11_eq m c t) Cover.cover11

/-- The kernel's run: it terminates, its two results are the network's two heads of the arguments, the arguments unchanged. -/
theorem run : θ_run defs (onTc (τ := τ) (main (F := Ideal))) ⟨m, fun _ => 0, ρ⟩ fun r => ∀ c : Dev nD,
      r.2.mem ((c : Thread nD τ).loc main_v124_0) = mean10 m c
      ∧ r.2.mem ((c : Thread nD τ).loc main_v124_1) = std11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.RunValue

end
-- ==== Proof.RefValue.lean ====
/-
  THE REFERENCE'S TWO RESULTS ARE THE NETWORK OF Spec, ROW BY ROW.

  The reference reshapes the 126 features of a row into 14 groups of 9, contracts each group with W1 and then with W2
  (bias and max with 0 after each), lays the 14 × 4 outputs back in a row of 56, appends the extra column and runs the
  third and fourth layers; the first 15 columns go through tanh, the last 15 through exp. Read one operation at a time
  at an index, that is Spec's hid, grp, comb, fin1 and outRow.
-/
import proofs.«163774_j12446815223911_1_alg».proof.Proof.Gen.ReferenceIdeal.Read
import proofs.«163774_j12446815223911_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

variable (x0 : (⟨S262144x126, .f32⟩ : BufTy).Contents (Elt Ideal)) (x1 : (⟨S262144x1, .f32⟩ : BufTy).Contents (Elt Ideal))
  (x2 : (⟨S9x16, .f32⟩ : BufTy).Contents (Elt Ideal)) (x3 : (⟨S16, .f32⟩ : BufTy).Contents (Elt Ideal))
  (x4 : (⟨S16x4, .f32⟩ : BufTy).Contents (Elt Ideal)) (x5 : (⟨S4, .f32⟩ : BufTy).Contents (Elt Ideal))
  (x6 : (⟨S57x128, .f32⟩ : BufTy).Contents (Elt Ideal)) (x7 : (⟨S128, .f32⟩ : BufTy).Contents (Elt Ideal))
  (x8 : (⟨S128x30, .f32⟩ : BufTy).Contents (Elt Ideal)) (x9 : (⟨S30, .f32⟩ : BufTy).Contents (Elt Ideal))

/-! ## The first layer: a group of 9 features against W1 -/

/-- Feature k of group g of row i, read through the reshape to 14 groups of 9, is column 9 g + k of row i:
    ((i · 14 + g) · 9 + k) divided by 126 has quotient i and remainder 9 g + k. -/
theorem idx_v0 (i : Fin 262144) (g : Fin 14) (h : Fin 16) (k : Fin 9) :
    idx_main_v0 (lidx_main_v1 (ix3 i g h) k)
      = ix2 i (⟨9 * g.val + k.val, by have := g.isLt; have := k.isLt; omega⟩ : Fin 126) := by
  funext a
  match a with
  | ⟨0, _⟩ =>
    exact Fin.ext (by
      show ((i.val * 14 + g.val) * 9 + k.val) / 126 = i.val
      have := g.isLt; have := k.isLt; omega)
  | ⟨1, _⟩ =>
    exact Fin.ext (by
      show ((i.val * 14 + g.val) * 9 + k.val) % 126 = 9 * g.val + k.val
      have := g.isLt; have := k.isLt; omega)

theorem ridx_v1 (i : Fin 262144) (g : Fin 14) (h : Fin 16) (k : Fin 9) :
    ridx_main_v1 (ix3 i g h) k = ix2 k h := by
  funext a
  match a with
  | ⟨0, _⟩ => rfl
  | ⟨1, _⟩ => rfl

theorem bidx_v3 (i : Fin 262144) (g : Fin 14) (h : Fin 16) :
    idx_main_v2 (idx_main_v3 (ix3 i g h)) = ix1 h := by
  funext a
  match a with
  | ⟨0, _⟩ => rfl

/-- Entry h of group g of row i after the first layer and its max with 0. -/
theorem v5_eq (i : Fin 262144) (g : Fin 14) (h : Fin 16) :
    val_main_v5 (F := Ideal) x0 x2 x3 (ix3 i g h) = hid (rowOf x0 i) x2 x3 g h := by
  rw [val_main_v5_apply, val_main_v4_apply, val_main_v1_apply, val_main_v3_apply, val_main_v2_apply,
    val_main_call0_v0_apply, val_main_call0_cst_apply, bidx_v3]
  rw [Ideal.maximumf_def, Ideal.addf_def, Ideal.ofBits_def, Ideal.ofBits_zero_f32]
  unfold hid
  congr 2
  refine Finset.sum_congr rfl fun k _ => ?_
  rw [val_main_v0_apply, idx_v0, ridx_v1]

/-! ## The second layer: a group's 16 hidden entries against W2 -/

theorem lidx_v6 (i : Fin 262144) (g : Fin 14) (o : Fin 4) (k : Fin 16) :
    lidx_main_v6 (ix3 i g o) k = ix3 i g k := by
  funext a
  match a with
  | ⟨0, _⟩ => rfl
  | ⟨1, _⟩ => rfl
  | ⟨2, _⟩ => rfl

theorem ridx_v6 (i : Fin 262144) (g : Fin 14) (o : Fin 4) (k : Fin 16) :
    ridx_main_v6 (ix3 i g o) k = ix2 k o := by
  funext a
  match a with
  | ⟨0, _⟩ => rfl
  | ⟨1, _⟩ => rfl

theorem bidx_v8 (i : Fin 262144) (g : Fin 14) (o : Fin 4) :
    idx_main_v7 (idx_main_v8 (ix3 i g o)) = ix1 o := by
  funext a
  match a with
  | ⟨0, _⟩ => rfl

/-- Output o of group g of row i after the second layer and its max with 0. -/
theorem v10_eq (i : Fin 262144) (g : Fin 14) (o : Fin 4) :
    val_main_v10 (F := Ideal) x0 x2 x3 x4 x5 (ix3 i g o) = grp (rowOf x0 i) x2 x3 x4 x5 g o := by
  rw [val_main_v10_apply, val_main_v9_apply, val_main_v6_apply, val_main_v8_apply, val_main_v7_apply,
    val_main_call1_v0_apply, val_main_call1_cst_apply, bidx_v8]
  rw [Ideal.maximumf_def, Ideal.addf_def, Ideal.ofBits_def, Ideal.ofBits_zero_f32]
  unfold grp
  congr 2
  refine Finset.sum_congr rfl fun k _ => ?_
  rw [lidx_v6, ridx_v6, v5_eq]

/-! ## The row of 57: the 14 × 4 group outputs, then the extra column -/

/-- Column c of the row of 56 is output c mod 4 of group c div 4: (i · 56 + c) splits as ((i · 14 + c / 4) · 4 + c % 4). -/
theorem idx_v11 (i : Fin 262144) (c : Fin 56) :
    idx_main_v11 (ix2 i c)
      = ix3 i (⟨c.val / 4, by have := c.isLt; omega⟩ : Fin 14) (⟨c.val % 4, Nat.mod_lt _ (by norm_num)⟩ : Fin 4) := by
  funext a
  match a with
  | ⟨0, _⟩ =>
    exact Fin.ext (by
      show (i.val * 56 + c.val) / 56 = i.val
      have := c.isLt; omega)
  | ⟨1, _⟩ =>
    exact Fin.ext (by
      show (i.val * 56 + c.val) / 4 % 14 = c.val / 4
      have := c.isLt; omega)
  | ⟨2, _⟩ =>
    exact Fin.ext (by
      show (i.val * 56 + c.val) % 4 = c.val % 4
      have := c.isLt; omega)

theorem v11_eq (i : Fin 262144) (c : Fin 56) :
    val_main_v11 (F := Ideal) x0 x2 x3 x4 x5 (ix2 i c)
      = grp (rowOf x0 i) x2 x3 x4 x5 (⟨c.val / 4, by have := c.isLt; omega⟩ : Fin 14)
          (⟨c.val % 4, Nat.mod_lt _ (by norm_num)⟩ : Fin 4) := by
  rw [val_main_v11_apply, idx_v11, v10_eq]

/-- Column k of the joined row: a group output when k < 56, the row's extra scalar at k = 56. -/
theorem v12_eq (i : Fin 262144) (k : Fin 57) :
    val_main_v12 (F := Ideal) x0 x1 x2 x3 x4 x5 (ix2 i k)
      = comb (rowOf x0 i) (x1 (ix2 i (0 : Fin 1))) x2 x3 x4 x5 k := by
  unfold val_main_v12 comb
  by_cases hk : k.val < 56
  · rw [dif_pos hk]
    rw [concatenate_pair_apply_left (1 : Fin S262144x57.rank) (val_main_v11 (F := Ideal) x0 x2 x3 x4 x5) x1
      Cert.ReferenceIdeal.Gen.concatenates_S262144x56_S262144x1_S262144x57_d1 (ix2 i k) rfl (ix2 i (⟨k.val, hk⟩ : Fin 56))
      (fun b => match b with
        | ⟨0, _⟩ => rfl
        | ⟨1, _⟩ => rfl)]
    exact v11_eq x0 x2 x3 x4 x5 i ⟨k.val, hk⟩
  · rw [dif_neg hk]
    exact concatenate_pair_apply_right (1 : Fin S262144x57.rank) (val_main_v11 (F := Ideal) x0 x2 x3 x4 x5) x1
      Cert.ReferenceIdeal.Gen.concatenates_S262144x56_S262144x1_S262144x57_d1 (ix2 i k) rfl rfl (ix2 i (0 : Fin 1))
      (fun b => match b with
        | ⟨0, _⟩ => fun _ => rfl
        | ⟨1, _⟩ => fun hb => absurd rfl hb)
      (by show 0 + 56 = k.val; have := k.isLt; omega)

/-! ## The third layer -/

theorem lidx_v13 (i : Fin 262144) (n : Fin 128) (k : Fin 57) :
    lidx_main_v13 (ix2 i n) k = ix2 i k := by
  funext a
  match a with
  | ⟨0, _⟩ => rfl
  | ⟨1, _⟩ => rfl

theorem ridx_v13 (i : Fin 262144) (n : Fin 128) (k : Fin 57) :
    ridx_main_v13 (ix2 i n) k = ix2 k n := by
  funext a
  match a with
  | ⟨0, _⟩ => rfl
  | ⟨1, _⟩ => rfl

theorem bidx_v15 (i : Fin 262144) (n : Fin 128) :
    idx_main_v14 (idx_main_v15 (ix2 i n)) = ix1 n := by
  funext a
  match a with
  | ⟨0, _⟩ => rfl

/-- Entry n of row i after the third layer and its max with 0. -/
theorem v17_eq (i : Fin 262144) (n : Fin 128) :
    val_main_v17 (F := Ideal) x0 x1 x2 x3 x4 x5 x6 x7 (ix2 i n)
      = fin1 (rowOf x0 i) (x1 (ix2 i (0 : Fin 1))) x2 x3 x4 x5 x6 x7 n := by
  rw [val_main_v17_apply, val_main_v16_apply, val_main_v13_apply, val_main_v15_apply, val_main_v14_apply,
    val_main_call2_v0_apply, val_main_call2_cst_apply, bidx_v15]
  rw [Ideal.maximumf_def, Ideal.addf_def, Ideal.ofBits_def, Ideal.ofBits_zero_f32]
  unfold fin1
  congr 2
  refine Finset.sum_congr rfl fun k _ => ?_
  rw [lidx_v13, ridx_v13, v12_eq]

/-! ## The fourth layer -/

theorem lidx_v18 (i : Fin 262144) (a : Fin 30) (k : Fin 128) :
    lidx_main_v18 (ix2 i a) k = ix2 i k := by
  funext d
  match d with
  | ⟨0, _⟩ => rfl
  | ⟨1, _⟩ => rfl

theorem ridx_v18 (i : Fin 262144) (a : Fin 30) (k : Fin 128) :
    ridx_main_v18 (ix2 i a) k = ix2 k a := by
  funext d
  match d with
  | ⟨0, _⟩ => rfl
  | ⟨1, _⟩ => rfl

theorem bidx_v20 (i : Fin 262144) (a : Fin 30) :
    idx_main_v19 (idx_main_v20 (ix2 i a)) = ix1 a := by
  funext d
  match d with
  | ⟨0, _⟩ => rfl

/-- Entry a of row i after the fourth layer. -/
theorem v21_eq (i : Fin 262144) (a : Fin 30) :
    val_main_v21 (F := Ideal) x0 x1 x2 x3 x4 x5 x6 x7 x8 x9 (ix2 i a)
      = outRow (rowOf x0 i) (x1 (ix2 i (0 : Fin 1))) x2 x3 x4 x5 x6 x7 x8 x9 a := by
  rw [val_main_v21_apply, val_main_v18_apply, val_main_v20_apply, val_main_v19_apply, bidx_v20]
  rw [Ideal.addf_def]
  unfold outRow
  congr 1
  refine Finset.sum_congr rfl fun k _ => ?_
  rw [lidx_v18, ridx_v18, v17_eq]

/-! ## The two heads -/

theorem idx_v22 (i : Fin 262144) (q : Fin 15) :
    idx_main_v22 (ix2 i q) = ix2 i (⟨q.val, by have := q.isLt; omega⟩ : Fin 30) := by
  funext d
  match d with
  | ⟨0, _⟩ => rfl
  | ⟨1, _⟩ => rfl

theorem idx_v23 (i : Fin 262144) (q : Fin 15) :
    idx_main_v23 (ix2 i q) = ix2 i (⟨q.val + 15, by have := q.isLt; omega⟩ : Fin 30) := by
  funext d
  match d with
  | ⟨0, _⟩ => rfl
  | ⟨1, _⟩ => exact Fin.ext (Nat.add_comm 15 q.val)

/-- The reference's first result is the network's mean head. -/
theorem mean_eq : val_main_v24 (F := Ideal) x0 x1 x2 x3 x4 x5 x6 x7 x8 x9 = Spec.mean x0 x1 x2 x3 x4 x5 x6 x7 x8 x9 := by
  funext y
  obtain ⟨i, q, rfl⟩ : ∃ (i : Fin 262144) (q : Fin 15), y = ix2 i q := ⟨y 0, y 1, eq_ix2 y⟩
  rw [mean_apply, val_main_v24_apply, val_main_v22_apply, Ideal.hostUnary_tanh_def, idx_v22, v21_eq]

/-- The reference's second result is the network's std head. -/
theorem std_eq : val_main_v25 (F := Ideal) x0 x1 x2 x3 x4 x5 x6 x7 x8 x9 = Spec.std x0 x1 x2 x3 x4 x5 x6 x7 x8 x9 := by
  funext y
  obtain ⟨i, q, rfl⟩ : ∃ (i : Fin 262144) (q : Fin 15), y = ix2 i q := ⟨y 0, y 1, eq_ix2 y⟩
  rw [std_apply, val_main_v25_apply, val_main_v23_apply, Ideal.hostUnary_exp_def, idx_v23, v21_eq]

end Cert.ReferenceIdeal.RefValue

end
-- ==== Proof.lean ====
/-
  The certificate of a small multi-layer network over 262144 rows, computed two ways.

  Each row of 126 features is 14 groups of 9; every group goes through the same two small layers (9 → 16 → 4, bias and
  max with 0 after each); the 56 group outputs and one extra scalar go through two more layers (57 → 128, max with 0,
  128 → 30); the first 15 outputs go through tanh, the last 15 through exp (Proof/Spec.lean states this function of the
  arguments row by row). The reference groups the row by a reshape and contracts every group with the shared weights.
  The kernel works on blocks of 4096 rows and never reshapes: the host first builds, from W1 and from W2, matrices that
  carry the shared weights in 14 diagonal blocks and zeros elsewhere (126 × 224 and 224 × 56), and repeats the two shared
  bias vectors 14 times; the kernel then multiplies whole rows by these matrices.

  On the extended reals the two are one function: a product with 0 is 0 whatever the other factor, and a finite sum may
  be regrouped, so column 16 g + h of the product of a row with the block-diagonal matrix is group g's contraction with
  column h of W1 (Proof/LibBlockDiag.lean); the same for W2. No finiteness of the inputs is used.

  The pieces: the host-built operands (Proof/KernelHost.lean over Proof/LibScatterSet.lean and
  Proof/LibBlockDiagScatter.lean; Proof/KernelHostBias.lean over Proof/LibTileRow.lean), the kernel's body at an entry
  (Proof/KernelBody.lean, Proof/KernelOut.lean), the blocks and the tiling of the output arrays (Proof/KernelBlocks.lean,
  Proof/KernelCover.lean), the kernel's run with both results named (Proof/KernelValue.lean), and the reference read one
  operation at a time (Proof/RefValue.lean). The frames of the two kernel programs are the generated ones; the
  reference's frame is its generated run with the results dropped; the idealization rewrote nothing.
-/
import proofs.«163774_j12446815223911_1_alg».proof.Defs
import proofs.«163774_j12446815223911_1_alg».proof.Proof.Gen.Kernel
import proofs.«163774_j12446815223911_1_alg».proof.Proof.Gen.Kernel.Skeleton
import proofs.«163774_j12446815223911_1_alg».proof.Proof.Gen.Kernel.Launch
import proofs.«163774_j12446815223911_1_alg».proof.Proof.Gen.Kernel.Points
import proofs.«163774_j12446815223911_1_alg».proof.Proof.Gen.Kernel.Frame
import proofs.«163774_j12446815223911_1_alg».proof.Proof.Gen.KernelIdeal
import proofs.«163774_j12446815223911_1_alg».proof.Proof.Gen.KernelIdeal.Skeleton
import proofs.«163774_j12446815223911_1_alg».proof.Proof.Gen.KernelIdeal.Launch
import proofs.«163774_j12446815223911_1_alg».proof.Proof.Gen.KernelIdeal.Points
import proofs.«163774_j12446815223911_1_alg».proof.Proof.Gen.KernelIdeal.Frame
import proofs.«163774_j12446815223911_1_alg».proof.Proof.Gen.ReferenceIdeal
import proofs.«163774_j12446815223911_1_alg».proof.Proof.Gen.Pre_finite_inputs
import proofs.«163774_j12446815223911_1_alg».proof.Proof.Gen.KernelIdeal.Value
import proofs.«163774_j12446815223911_1_alg».proof.Proof.Gen.ReferenceIdeal.Run
import proofs.«163774_j12446815223911_1_alg».proof.Proof.Gen.ReferenceIdeal.Read
import proofs.«163774_j12446815223911_1_alg».proof.Proof.KernelValue
import proofs.«163774_j12446815223911_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the network's two heads of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RunValue.mean10 m c, fun c => Cert.KernelIdeal.RunValue.std11 m c,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v24_eq, Cert.ReferenceIdeal.RefValue.mean_eq, e0, e1, e2, e3, e4, e5, e6, e7, e8, e9]
  · obtain ⟨e0, e1, e2, e3, e4, e5, e6, e7, e8, e9⟩ := hagree c
    rw [Cert.ReferenceIdeal.Read.val_main_v25_eq, Cert.ReferenceIdeal.RefValue.std_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
